-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : FVec F S4096x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S8192x128 : Shape := ⟨2, ![8192, 128]⟩
abbrev S8192x1 : Shape := ⟨2, ![8192, 1]⟩
abbrev S1024x128 : Shape := ⟨2, ![1024, 128]⟩
abbrev S512x128 : Shape := ⟨2, ![512, 128]⟩
abbrev S1024x1 : Shape := ⟨2, ![1024, 1]⟩
abbrev S128x512 : Shape := ⟨2, ![128, 512]⟩
abbrev S1024x512 : Shape := ⟨2, ![1024, 512]⟩
abbrev S1024 : Shape := ⟨1, ![1024]⟩
abbrev S8192 : Shape := ⟨1, ![8192]⟩

abbrev nBuf : Space → Nat
  | .hbm => 41
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x128, .f32⟩
  | .hbm, ⟨21, _⟩ => ⟨S4096x128, .f32⟩
  | .hbm, ⟨22, _⟩ => ⟨S8192x128, .f32⟩
  | .hbm, ⟨23, _⟩ => ⟨S8192x128, .bf16⟩
  | .hbm, ⟨24, _⟩ => ⟨S8192x1, .f32⟩
  | .hbm, ⟨25, _⟩ => ⟨S8192, .f32⟩
  | .hbm, ⟨26, _⟩ => ⟨S4096x128, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S512x128, .bf16⟩
  | .local _ .vmem, ⟨3, _⟩ => ⟨S512x128, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v30 : BitVec 1 := Scalar.cmpi .eq arg1 c15_i32
  let v31 : BitVec 32 := Scalar.extui v30
  let c0_i32_11 : BitVec 32 := 0#32
  let v32 : BitVec 1 := Scalar.cmpi .ne v31 c0_i32_11
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  concatenates_S4096x128_S4096x128_S8192x128_d0 : Shape.Concatenates [S4096x128, S4096x128] S8192x128 0
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  transposes_S512x128_p1_0_S128x512 : S512x128.Transposes [1, 0] S128x512
  iota_S1024x512_d0_w32 : S1024x512.Iotas .tc 32 [0]
  iota_S1024x512_d1_w32 : S1024x512.Iotas .tc 32 [1]
  reduces_S1024x512_S1024 : S1024x512.Reduces [1] S1024
  shapeCasts_S1024_S1024x1 : S1024.ShapeCasts S1024x1
  shapeCasts_S8192x1_S8192 : S8192x1.ShapeCasts S8192
  bcast_S_S4096 : S_.BroadcastsInDim S4096 (![] : Fin 0 → Fin S4096.rank)
  concatenates_S4096_S4096_S8192_d0 : Shape.Concatenates [S4096, S4096] S8192 0
  reducesTo_S8192_S_d0 : S8192.ReducesTo [0] S_
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .bf16 = 32 ∨ (Rect.block (s := S8192x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_v11) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S8192x128 : Shape := ⟨2, ![8192, 128]⟩
abbrev S128x8192 : Shape := ⟨2, ![128, 8192]⟩
abbrev S8192x8192 : Shape := ⟨2, ![8192, 8192]⟩
abbrev S4096x2 : Shape := ⟨2, ![4096, 2]⟩
abbrev S8192 : Shape := ⟨1, ![8192]⟩

abbrev nBuf : Space → Nat
  | .hbm => 100
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x128, .f32⟩
  | .hbm, ⟨21, _⟩ => ⟨S4096x128, .f32⟩
  | .hbm, ⟨22, _⟩ => ⟨S8192x128, .f32⟩
  | .hbm, ⟨23, _⟩ => ⟨S128x8192, .f32⟩
  | .hbm, ⟨24, _⟩ => ⟨S8192x8192, .f32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S4096x1, .i32⟩
  | .hbm, ⟨46, _⟩ => ⟨S4096x2, .i32⟩
  | .hbm, ⟨47, _⟩ => ⟨S4096, .f32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S4096x1, .i32⟩
  | .hbm, ⟨69, _⟩ => ⟨S4096x2, .i32⟩
  | .hbm, ⟨70, _⟩ => ⟨S4096, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192, .f32⟩
  | .hbm, ⟨76, _⟩ => ⟨S8192x8192, .i32⟩
  | .hbm, ⟨77, _⟩ => ⟨S8192x8192, .i32⟩
  | .hbm, ⟨78, _⟩ => ⟨S_, .i32⟩
  | .hbm, ⟨79, _⟩ => ⟨S8192x8192, .i32⟩
  | .hbm, ⟨80, _⟩ => ⟨S8192x8192, .i32⟩
  | .hbm, ⟨81, _⟩ => ⟨S8192x8192, .i1⟩
  | .hbm, ⟨82, _⟩ => ⟨S8192x8192, .f32⟩
  | .hbm, ⟨83, _⟩ => ⟨S_, .f32⟩
  | .hbm, ⟨84, _⟩ => ⟨S8192x8192, .f32⟩
  | .hbm, ⟨85, _⟩ => ⟨S8192x8192, .f32⟩
  | .hbm, ⟨86, _⟩ => ⟨S_, .f32⟩
  | .hbm, ⟨87, _⟩ => ⟨S8192x8192, .f32⟩
  | .hbm, ⟨88, _⟩ => ⟨S8192x8192, .f32⟩
  | .hbm, ⟨89, _⟩ => ⟨S8192x8192, .f32⟩
  | .hbm, ⟨90, _⟩ => ⟨S8192x8192, .f32⟩
  | .hbm, ⟨91, _⟩ => ⟨S_, .f32⟩
  | .hbm, ⟨92, _⟩ => ⟨S8192, .f32⟩
  | .hbm, ⟨93, _⟩ => ⟨S8192, .f32⟩
  | .hbm, ⟨94, _⟩ => ⟨S8192, .f32⟩
  | .hbm, ⟨95, _⟩ => ⟨S8192, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call2_v0 : Ref sig .tc := ⟨.hbm, 25, rfl⟩
abbrev main_call2_v1 : Ref sig .tc := ⟨.hbm, 26, rfl⟩
abbrev main_call2_c : Ref sig .tc := ⟨.hbm, 27, rfl⟩
abbrev main_call2_v2 : Ref sig .tc := ⟨.hbm, 28, rfl⟩
abbrev main_call2_v3 : Ref sig .tc := ⟨.hbm, 29, rfl⟩
abbrev main_call2_c_0 : Ref sig .tc := ⟨.hbm, 30, rfl⟩
abbrev main_call2_v4 : Ref sig .tc := ⟨.hbm, 31, rfl⟩
abbrev main_call2_v5 : Ref sig .tc := ⟨.hbm, 32, rfl⟩
abbrev main_call2_c_1 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_c_2 : Ref sig .tc := ⟨.hbm, 37, rfl⟩
abbrev main_call2_v9 : Ref sig .tc := ⟨.hbm, 38, rfl⟩
abbrev main_call2_v10 : Ref sig .tc := ⟨.hbm, 39, rfl⟩
abbrev main_call2_c_3 : Ref sig .tc := ⟨.hbm, 40, rfl⟩
abbrev main_call2_v11 : Ref sig .tc := ⟨.hbm, 41, rfl⟩
abbrev main_call2_v12 : Ref sig .tc := ⟨.hbm, 42, rfl⟩
abbrev main_call2_v13 : Ref sig .tc := ⟨.hbm, 43, rfl⟩
abbrev main_call2_v14 : Ref sig .tc := ⟨.hbm, 44, rfl⟩
abbrev main_call2_v15 : Ref sig .tc := ⟨.hbm, 45, rfl⟩
abbrev main_call2_v16 : Ref sig .tc := ⟨.hbm, 46, rfl⟩
abbrev main_v13 : Ref sig .tc := ⟨.hbm, 47, rfl⟩
abbrev main_call3_v0 : Ref sig .tc := ⟨.hbm, 48, rfl⟩
abbrev main_call3_v1 : Ref sig .tc := ⟨.hbm, 49, rfl⟩
abbrev main_call3_c : Ref sig .tc := ⟨.hbm, 50, rfl⟩
abbrev main_call3_v2 : Ref sig .tc := ⟨.hbm, 51, rfl⟩
abbrev main_call3_v3 : Ref sig .tc := ⟨.hbm, 52, rfl⟩
abbrev main_call3_c_0 : Ref sig .tc := ⟨.hbm, 53, rfl⟩
abbrev main_call3_v4 : Ref sig .tc := ⟨.hbm, 54, rfl⟩
abbrev main_call3_v5 : Ref sig .tc := ⟨.hbm, 55, rfl⟩
abbrev main_call3_c_1 : Ref sig .tc := ⟨.hbm, 56, rfl⟩
abbrev main_call3_v6 : Ref sig .tc := ⟨.hbm, 57, rfl⟩
abbrev main_call3_v7 : Ref sig .tc := ⟨.hbm, 58, rfl⟩
abbrev main_call3_v8 : Ref sig .tc := ⟨.hbm, 59, rfl⟩
abbrev main_call3_c_2 : Ref sig .tc := ⟨.hbm, 60, rfl⟩
abbrev main_call3_v9 : Ref sig .tc := ⟨.hbm, 61, rfl⟩
abbrev main_call3_v10 : Ref sig .tc := ⟨.hbm, 62, rfl⟩
abbrev main_call3_c_3 : Ref sig .tc := ⟨.hbm, 63, rfl⟩
abbrev main_call3_v11 : Ref sig .tc := ⟨.hbm, 64, rfl⟩
abbrev main_call3_v12 : Ref sig .tc := ⟨.hbm, 65, rfl⟩
abbrev main_call3_v13 : Ref sig .tc := ⟨.hbm, 66, rfl⟩
abbrev main_call3_v14 : Ref sig .tc := ⟨.hbm, 67, rfl⟩
abbrev main_call3_v15 : Ref sig .tc := ⟨.hbm, 68, rfl⟩
abbrev main_call3_v16 : Ref sig .tc := ⟨.hbm, 69, rfl⟩
abbrev main_v14 : Ref sig .tc := ⟨.hbm, 70, rfl⟩
abbrev main_v15 : Ref sig .tc := ⟨.hbm, 71, rfl⟩
abbrev main_cst_1 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_c : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_cst_2 : Ref sig .tc := ⟨.hbm, 83, rfl⟩
abbrev main_v25 : Ref sig .tc := ⟨.hbm, 84, rfl⟩
abbrev main_v26 : Ref sig .tc := ⟨.hbm, 85, rfl⟩
abbrev main_cst_3 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_cst_4 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_cst_5 : Ref sig .tc := ⟨.hbm, 96, rfl⟩
abbrev main_v35 : Ref sig .tc := ⟨.hbm, 97, rfl⟩
abbrev main_cst_6 : Ref sig .tc := ⟨.hbm, 98, rfl⟩
abbrev main_v36 : Ref sig .tc := ⟨.hbm, 99, rfl⟩

abbrev nD : Nat := 1
abbrev τ : Topo := Topo.v7x

variable {F : FTy → Type} [FloatOps F]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  concatenates_S4096x128_S4096x128_S8192x128_d0 : Shape.Concatenates [S4096x128, S4096x128] S8192x128 0
  transposes_S8192x128_S128x8192_1_0 : S8192x128.Transposes [1, 0] S128x8192
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S8192 : S_.BroadcastsInDim S8192 (![] : Fin 0 → Fin S8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x128_S128x8192_S8192x8192_1_0_0_1_n_n_wf : DotDims.WF S8192x128 S128x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.KI.Setup.lean ====
/-
  The contrastive-loss denominator kernel: what every later module is stated over.

  The grid is 8 row tiles by 16 column tiles (point t = 16 * ri + ci).  At a point the body multiplies the row
  tile (1024 x 128) with the transposed column tile (512 x 128), exponentiates, zeroes the entries on the global
  diagonal, sums each row over the 512 columns and adds the column of partial sums to an accumulator that lives in a
  scratch buffer: the accumulator is reset where ci = 0 and copied to the output block where ci = 15.  Both input
  windows read ONE array (the normalised representations), the row window by ri and the column window by ci.

  Here: the contents of the buffers when the region is entered (after the host lines that normalise the rows), the
  blocks of the two windows, the branch conditions in closed form, the accumulator after each point as a recursion on
  the point, and the proof data of the pipeline built from them.
-/
import proofs.«166630_j78288663871843_1_alg».proof.Proof.Gen.KernelIdeal.Launch
import proofs.«166630_j78288663871843_1_alg».proof.Proof.Gen.KernelIdeal.Skeleton
import proofs.«166630_j78288663871843_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents when the region is entered: after the four stretches of host lines that normalise
    the rows of both arguments, stack them and round them to bf16. -/
abbrev V0 (c : Dev nD) : Valuation τ sig (Elt F) :=
  StableHlo.after (List.flatten [hostOps0, hostOps0_1, hostOps0_2, hostOps0_3]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row tile at point `t`: rows `1024 * ri ..` of the representations. -/
abbrev rowBlk (c : Dev nD) (t : Fin cfg0.N) : Vec F S1024x128 .bf16 := iblk m c 0 t
/-- The column tile at point `t`: rows `512 * ci ..` of the representations. -/
abbrev colBlk (c : Dev nD) (t : Fin cfg0.N) : Vec F S512x128 .bf16 := iblk m c 1 t

/-! ## The branch conditions -/

/-- "This is the first column tile" (`ci = 0`), as the body computes it. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 16 = 0 :=
  (by decide +kernel : ∀ t : Fin grid0.N, condFirst (grid0.coords t) ↔ t.val % 16 = 0)

/-- "This is the last column tile" (`ci = 15`). -/
abbrev condLast (i : grid0.Coords) : Prop := k0_cond2 i = 1#1
theorem hcondLast : ∀ t : Fin cfg0.N, condLast (grid0.coords t) ↔ t.val % 16 = 15 :=
  (by decide +kernel : ∀ t : Fin grid0.N, condLast (grid0.coords t) ↔ t.val % 16 = 15)

/-! ## Where the windows are idle, and when the output is written back -/

theorem live0 : ∀ t : Fin cfg0.N, cfg0.idle 0 (grid0.coords t) = false := by decide +kernel
theorem live1 : ∀ t : Fin cfg0.N, cfg0.idle 1 (grid0.coords t) = false := by decide +kernel
theorem idle2 : ∀ t : Fin cfg0.N, ¬condLast (grid0.coords t) → cfg0.idle 2 (grid0.coords t) = true := by decide +kernel
theorem live2 : ∀ t : Fin cfg0.N, condLast (grid0.coords t) → cfg0.idle 2 (grid0.coords t) = false := by decide +kernel
theorem noFlush2 : ∀ t : Fin cfg0.N, ¬condLast (grid0.coords t) → (cfg0.win 2).flush t = false := by decide +kernel

/-! ## The staging memrefs and the scratch -/

abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
/-- The accumulator's buffer. -/
abbrev scM : Memref sig .tc .vmem S1024x1 .f32 := Memref.whole cc0_scratch0

/-- The core's scoped buffers that are no staging buffer: the accumulator, at some contents. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-! ## The accumulator after each point -/

/-- What the accumulator holds after the body at point `n`: the body's update of the zero column where a row tile
    starts (`n % 16 = 0`), of what the point before left elsewhere. -/
def accAt (c : Dev nD) : (n : ℕ) → n < cfg0.N → Vec F S1024x1 .f32
  | 0, hn => k0_pay2 (grid0.coords ⟨0, hn⟩) (rowBlk m c ⟨0, hn⟩) (colBlk m c ⟨0, hn⟩) (k0_pay1 (F := F))
  | n + 1, hn =>
    k0_pay2 (grid0.coords ⟨n + 1, hn⟩) (rowBlk m c ⟨n + 1, hn⟩) (colBlk m c ⟨n + 1, hn⟩)
      (if (n + 1) % 16 = 0 then k0_pay1 (F := F) else accAt c n (Nat.lt_of_succ_lt hn))

/-- At the start of a row tile the accumulator restarts from zero. -/
theorem accAt_first (c : Dev nD) (t : Fin cfg0.N) (h : t.val % 16 = 0) :
    accAt m c t.val t.isLt = k0_pay2 (grid0.coords t) (rowBlk m c t) (colBlk m c t) (k0_pay1 (F := F)) := by
  obtain ⟨n, hn⟩ := t
  cases n with
  | zero => rfl
  | succ n => exact congrArg (k0_pay2 (grid0.coords ⟨n + 1, hn⟩) (rowBlk m c ⟨n + 1, hn⟩) (colBlk m c ⟨n + 1, hn⟩)) (if_pos h)

/-- Elsewhere it continues from the point before. -/
theorem accAt_next (c : Dev nD) (t : Fin cfg0.N) (h : ¬t.val % 16 = 0) :
    accAt m c t.val t.isLt = k0_pay2 (grid0.coords t) (rowBlk m c t) (colBlk m c t)
      (accAt m c (t.val - 1) (Nat.lt_of_le_of_lt (Nat.sub_le _ _) t.isLt)) := by
  obtain ⟨n, hn⟩ := t
  cases n with
  | zero => exact absurd (Nat.zero_mod _) h
  | succ n => exact (congrArg (k0_pay2 (grid0.coords ⟨n + 1, hn⟩) (rowBlk m c ⟨n + 1, hn⟩) (colBlk m c ⟨n + 1, hn⟩)) (if_neg h)).trans rfl

/-- The region invariant before position `n`: at the start the accumulator's buffer at anything; afterwards at what
    the point before left. -/
def PhiS (c : Dev nD) : (n : ℕ) → n ≤ cfg0.N → sProp 𝕄
  | 0, _ => iprop(∃ d, owns (c : Thread nD τ) scM fullShare d)
  | n + 1, hn => owns (c : Thread nD τ) scM fullShare (accAt m c n hn)

theorem PhiS_zero (c : Dev nD) (n : ℕ) (h : n ≤ cfg0.N) (hz : n = 0) :
    PhiS m c n h = iprop(∃ d, owns (c : Thread nD τ) scM fullShare d) := by subst hz; rfl
theorem PhiS_succ (c : Dev nD) (n : ℕ) (hn : n < cfg0.N) :
    PhiS m c (n + 1) hn = owns (c : Thread nD τ) scM fullShare (accAt m c n hn) := rfl
theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- The proof data of the pipeline on core `c`: the arrays as the region finds them; after the body each input's
    buffer at its block and the output's at the accumulator (consulted only where the block is written back, `ci = 15`,
    where the body has just copied the accumulator there); the invariant above; the one array behind both input
    windows held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem Phi_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accAt m c t.val t.isLt := by dsimp only [dats]

end Cert.KernelIdeal.Fr

end
-- ==== Proof.KI.Runs.lean ====
/-
  The body of the denominator kernel run once, in each of the three situations the grid meets: the first column
  tile of a row tile (the accumulator is reset, then updated), a middle column tile (updated), the last column tile
  (updated, then copied to the output block).  In every case the accumulator ends at the body's update
  (`k0_pay2`) of what it held — of the zero column (`k0_pay1`) after a reset — and the input buffers are left as
  found; only in the last case is the output buffer written, with the accumulator's new contents.
-/
import proofs.«166630_j78288663871843_1_alg».proof.Proof.KI.Setup
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The whole-buffer rectangle's offsets are zero. -/
private theorem off0 : (![0, 0] : Fin 2 → ℕ) = fun _ => 0 := funext fun a => by fin_cases a <;> rfl

/-- One store through the whole rectangle of the column covers every index, whatever lies under it. -/
private theorem cover1 (w : Vec F S1024x1 .f32) (L : List (View.Piece (Elt F) S1024x1 .f32)) (y : S1024x1.Idx) :
    ∃ p ∈ ((⟨Rect.unit (s := S1024x1) ![0, 0] S1024x1.size inb_S1024x1_S1024x1_0_0, w⟩ : View.Piece (Elt F) S1024x1 .f32) :: L),
      y ∈ p.1.set :=
  ⟨_, List.mem_cons_self, View.mem_set_unit_zero (S := S1024x1) off0 inb_S1024x1_S1024x1_0_0 y⟩

set_option maxHeartbeats 1000000 in
/-- First column tile: reset, update. The output buffer is untouched. -/
theorem run_first (c : Dev nD) (i : grid0.Coords)
    (arg2 : Memref sig .tc .vmem S1024x128 .bf16) (harg2 : arg2.IsWhole) (arg3 : Memref sig .tc .vmem S512x128 .bf16) (harg3 : arg3.IsWhole)
    (arg4 : Memref sig .tc .vmem S1024x1 .f32) (harg4 : arg4.IsWhole) (arg5 : Memref sig .tc .vmem S1024x1 .f32) (harg5 : arg5.IsWhole)
    (h1 : condFirst i) (h2 : ¬condLast i)
    (x0 : Vec F S1024x128 .bf16) (x1 : Vec F S512x128 .bf16) (xo xs : Vec F S1024x1 .f32) (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k0_pay2 i x0 x1 (k0_pay1 (F := F)))) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  -- the body, run with both branches decided by the situation
  sl_exec (disch := first | exact h1 | exact h2)
  sl_step
  iapply Hk
  -- the buffers the body only reads are handed back as found
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  -- the accumulator: the update's store lies over the reset's, and the update's load of the accumulator reads the reset's payload
  iexists _; isplitr
  swap
  · iexact H3
  · ipureintro
    sl_unfold_words
    rw [View.read_writes_eq_canon _ _ _ (cover1 _ _), View.canon_cons_unit_zero (S := S1024x1) off0]
    simp only [View.readAt_eq_ld, harg2.read_unread, harg3.read_unread, View.readCov_unit_zero (S := S1024x1) _ off0,
      View.ld_unit_zero (S := S1024x128) off0, View.ld_unit_zero (S := S512x128) off0, View.ld_unit_zero (S := S1024x1) off0]

set_option maxHeartbeats 1000000 in
/-- A middle column tile: update only. -/
theorem run_mid (c : Dev nD) (i : grid0.Coords)
    (arg2 : Memref sig .tc .vmem S1024x128 .bf16) (harg2 : arg2.IsWhole) (arg3 : Memref sig .tc .vmem S512x128 .bf16) (harg3 : arg3.IsWhole)
    (arg4 : Memref sig .tc .vmem S1024x1 .f32) (harg4 : arg4.IsWhole) (arg5 : Memref sig .tc .vmem S1024x1 .f32) (harg5 : arg5.IsWhole)
    (h1 : ¬condFirst i) (h2 : ¬condLast i)
    (x0 : Vec F S1024x128 .bf16) (x1 : Vec F S512x128 .bf16) (xo xs : Vec F S1024x1 .f32) (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k0_pay2 i x0 x1 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  -- the body, run with both branches decided by the situation
  sl_exec (disch := first | exact h1 | exact h2)
  sl_step
  iapply Hk
  -- the buffers the body only reads are handed back as found
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  -- the accumulator: one store through the whole rectangle leaves its payload; the payload's loads read the contents
  iexists _; isplitr
  swap
  · iexact H3
  · ipureintro
    rw [View.read_writes_eq_canon _ _ _ (cover1 _ _), View.canon_unit_zero (S := S1024x1) off0]
    simp only [View.readAt_eq_ld, harg2.read_unread, harg3.read_unread, harg5.read_unread,
      View.ld_unit_zero (S := S1024x128) off0, View.ld_unit_zero (S := S512x128) off0, View.ld_unit_zero (S := S1024x1) off0]

set_option maxHeartbeats 1000000 in
/-- The last column tile: update, then the accumulator is copied to the output buffer. -/
theorem run_last (c : Dev nD) (i : grid0.Coords)
    (arg2 : Memref sig .tc .vmem S1024x128 .bf16) (harg2 : arg2.IsWhole) (arg3 : Memref sig .tc .vmem S512x128 .bf16) (harg3 : arg3.IsWhole)
    (arg4 : Memref sig .tc .vmem S1024x1 .f32) (harg4 : arg4.IsWhole) (arg5 : Memref sig .tc .vmem S1024x1 .f32) (harg5 : arg5.IsWhole)
    (h1 : ¬condFirst i) (h2 : condLast i)
    (x0 : Vec F S1024x128 .bf16) (x1 : Vec F S512x128 .bf16) (xo xs : Vec F S1024x1 .f32) (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare (k0_pay2 i x0 x1 xs)
            ∗ owns (c : Thread nD τ) arg5 fullShare (k0_pay2 i x0 x1 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  -- the body, run with both branches decided by the situation
  sl_exec (disch := first | exact h1 | exact h2)
  sl_step
  iapply Hk
  -- the input buffers are handed back as found
  isplitl [H0]
  · iexists _; isplitr
    · ipureintro; exact harg2.read_unread _
    iexact H0
  isplitl [H1]
  · iexists _; isplitr
    · ipureintro; exact harg3.read_unread _
    iexact H1
  -- the output buffer: the copy's store leaves what its load of the accumulator read, the update's payload
  isplitl [H2]
  · iexists _; isplitr
    swap
    · iexact H2
    · ipureintro
      sl_unfold_words
      rw [View.read_writes_eq_canon _ _ _ (cover1 _ _), View.canon_unit_zero (S := S1024x1) off0]
      simp only [View.readAt_eq_ld, harg2.read_unread, harg3.read_unread, harg5.read_unread,
        View.readCov_unit_zero (S := S1024x1) _ off0, View.ld_unit_zero (S := S1024x128) off0, View.ld_unit_zero (S := S512x128) off0, View.ld_unit_zero (S := S1024x1) off0]
  -- the accumulator: one store through the whole rectangle leaves its payload; the payload's loads read the contents
  iexists _; isplitr
  swap
  · iexact H3
  · ipureintro
    sl_unfold_words
    rw [View.read_writes_eq_canon _ _ _ (cover1 _ _), View.canon_unit_zero (S := S1024x1) off0]
    simp only [View.readAt_eq_ld, harg2.read_unread, harg3.read_unread, harg5.read_unread,
      View.ld_unit_zero (S := S1024x128) off0, View.ld_unit_zero (S := S512x128) off0, View.ld_unit_zero (S := S1024x1) off0]

end Cert.KernelIdeal.Fr

end
-- ==== Proof.KI.Body.lean ====
/-
  The body obligation of the pipeline: at every grid point, from the invariant (the accumulator at what the point
  before left), the two input buffers at their blocks and the output buffer at whatever it holds, the kernel's body
  runs to the invariant of the next point, the inputs untouched, and the output buffer either handed back as found
  (it is idle unless `ci = 15`) or holding the finished row sums.
-/
import proofs.«166630_j78288663871843_1_alg».proof.Proof.KI.Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The row window's current buffer holds the row tile at every point, fetched there or not: unfetched, its block
    index has not moved since the point before. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)

/-- The column window's current buffer holds the column tile at every point. -/
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

/-- What the body is called with at point `t`: the invariant, what the core owes, and the three windows' current
    buffers at what they then hold. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- What it returns: the invariant of the next point, what the core owes, and the three buffers at what the body leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The inputs' buffers hold the row and column tiles; the closed forms of the two branch
    conditions say which of the three situations the point is in, and that situation's run applies: the accumulator's
    buffer comes from the invariant (at anything before the first point, at what the point before left otherwise) and
    goes back at this point's contents; the output buffer is handed back as found where `ci ≠ 15` and holds the
    accumulator where `ci = 15`; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  have hN : t.val < 128 := lt_of_lt_of_eq t.isLt (show cfg0.N = 128 from N_0)
  by_cases h0 : t.val % 16 = 0
  · have h1 : ¬t.val % 16 = 15 := by omega
    have hc1 : condFirst (grid0.coords t) := (hcondFirst t).mpr h0
    have hc2 : ¬condLast (grid0.coords t) := fun h => h1 ((hcondLast t).mp h)
    rw [Dat.leavesExact_idle (dats m 0 c) 2 t (idle2 t hc2) (noFlush2 t hc2)]
    rw [accAt_first m c t h0]
    by_cases hz : t.val = 0
    · rw [Phi_castSucc m c t, PhiS_zero m c _ _ hz]
      iintro ⟨⟨%xs, HS⟩, Ho, ⟨%d0, H0⟩, ⟨%d1, H1⟩, ⟨%d2, H2⟩⟩
      iapply (run_first c (grid0.coords t) (ms0 t) (hs0 t) (ms1 t) (hs1 t) (ms2 t) (hs2 t) scM (Memref.isWhole_whole _)
        hc1 hc2 (rowBlk m c t) (colBlk m c t) ((dats m 0 c).before 2 t d2) xs Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexists d2; iexact H2
    · rw [Phi_castSucc m c t, PhiS_pos m c _ _ hz]
      iintro ⟨HS, Ho, ⟨%d0, H0⟩, ⟨%d1, H1⟩, ⟨%d2, H2⟩⟩
      iapply (run_first c (grid0.coords t) (ms0 t) (hs0 t) (ms1 t) (hs1 t) (ms2 t) (hs2 t) scM (Memref.isWhole_whole _)
        hc1 hc2 (rowBlk m c t) (colBlk m c t) ((dats m 0 c).before 2 t d2)
        (accAt m c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexists d2; iexact H2
  · have hz : t.val ≠ 0 := fun h => h0 (by rw [h])
    have hc1 : ¬condFirst (grid0.coords t) := fun h => h0 ((hcondFirst t).mp h)
    rw [Phi_castSucc m c t, PhiS_pos m c _ _ hz]
    rw [accAt_next m c t h0]
    by_cases h1 : t.val % 16 = 15
    · have hc2 : condLast (grid0.coords t) := (hcondLast t).mpr h1
      rw [show (dats m 0 c).leavesExact 2 t = owns (c : Thread nD τ) (ms2 t) fullShare ((dats m 0 c).after 2 t) from by
        unfold Dat.leavesExact; rw [live2 t hc2], after2, accAt_next m c t h0]
      iintro ⟨HS, Ho, ⟨%d0, H0⟩, ⟨%d1, H1⟩, ⟨%d2, H2⟩⟩
      iapply (run_last c (grid0.coords t) (ms0 t) (hs0 t) (ms1 t) (hs1 t) (ms2 t) (hs2 t) scM (Memref.isWhole_whole _)
        hc1 hc2 (rowBlk m c t) (colBlk m c t) ((dats m 0 c).before 2 t d2)
        (accAt m c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexact H2
    · have hc2 : ¬condLast (grid0.coords t) := fun h => h1 ((hcondLast t).mp h)
      rw [Dat.leavesExact_idle (dats m 0 c) 2 t (idle2 t hc2) (noFlush2 t hc2)]
      iintro ⟨HS, Ho, ⟨%d0, H0⟩, ⟨%d1, H1⟩, ⟨%d2, H2⟩⟩
      iapply (run_mid c (grid0.coords t) (ms0 t) (hs0 t) (ms1 t) (hs1 t) (ms2 t) (hs2 t) scM (Memref.isWhole_whole _)
        hc1 hc2 (rowBlk m c t) (colBlk m c t) ((dats m 0 c).before 2 t d2)
        (accAt m c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexists d2; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region — the accumulator's buffer at anything — is the invariant before the first point. -/
theorem hin (c : Dev nD) : (iprop(∃ d, owns (c : Thread nD τ) scM fullShare d) : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the accumulator's buffer back, its named contents forgotten. -/
theorem Phi_out (c : Dev nD) (t : Fin (cfg0.N + 1)) (ht : t.val ≠ 0) :
    (dats m 0 c).Φ t ⊢ (iprop(∃ d, owns (c : Thread nD τ) scM fullShare d) : sProp 𝕄) := by
  rw [show (dats m 0 c).Φ t = PhiS m c t.val (Nat.le_of_lt_succ t.isLt) from rfl, PhiS_pos m c _ _ ht]
  iintro HS
  iexists _; iexact HS

/-- After the last point the invariant gives the buffer back, its contents forgotten. -/
theorem hout (c : Dev nD) : (dats m 0 c).Φ (Fin.last cfg0.N) ⊢ (iprop(∃ d, owns (c : Thread nD τ) scM fullShare d) : sProp 𝕄) :=
  Phi_out m c _ (by rw [Fin.val_last]; have : cfg0.N = 128 := N_0; omega)

end Cert.KernelIdeal.Fr

end
-- ==== Proof.KI.Launch.lean ====
/-
  The launch: from the body obligation to the run of the whole program.  The program is four stretches of host
  lines, the kernel region, and a stretch of host lines that turns the denominators into the loss.  Both input
  windows of the region read ONE array; its points-to is split in two halves at the region's entry, one per window,
  and joined again at the exit.  The lines after the region touch the output array and the buffers that bypass the
  region, never the shared array.
-/
import proofs.«166630_j78288663871843_1_alg».proof.Proof.KI.Setup

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when the region is left: the output array at what the write-backs left, every other buffer as the
    region found it. -/
abbrev Wexit (c : Dev nD) : Valuation τ sig (Elt F) :=
  Function.update (V0 m c) (Proc.devRef .tc main_v12) ((dats m 0 c).arrAt 2 cfg0.N)

/-- The buffers at the end of @main: after the lines that follow the region. -/
abbrev Vfin (c : Dev nD) : Valuation τ sig (Elt F) := StableHlo.after hostOps1 (Wexit m c)

/-! ## The launch element and the routing of the bypassing buffers -/

/-- The unscoped buffers that are no array of the pipeline, at the contents the region finds. -/
abbrev Zin (c : Dev nD) : sProp 𝕄 := Pipeline.unscopedRest spec0 c (V m c)
/-- The same buffers at the end of @main. -/
abbrev Zfin (c : Dev nD) : sProp 𝕄 := Pipeline.unscopedRest spec0 c (fun b => Vfin m c (Proc.devRef .tc b))

theorem hX_main (c : Dev nD) :
    (Pipeline.unscopedRestP (Pipeline.Prefetch.none (sig := sig)) spec0 c (V m c) : sProp 𝕄) ⊢ iprop(emp ∗ Zin m c) := by
  rw [Pipeline.unscopedRestP_none]
  iintro H; isplitr
  · iempintro
  · iexact H

theorem hin_main (hin : ∀ c : Dev nD, (iprop(∃ d, owns (c : Thread nD τ) scM fullShare d) : sProp 𝕄) ⊢ (dats m 0 c).Φ 0) (c : Dev nD) :
    (iprop(emp ∗ Pipeline.prefHeld (Pipeline.Prefetch.none (sig := sig)) c (fun _ => fullShare.right) (cfg0.toPCfg_adm (Val := Elt F)).1 ∗ Pipeline.scopedRest spec0 c) : sProp 𝕄)
      ⊢ (dats m 0 c).Φ 0 := by
  rw [scopedRest_eq]
  exact (show _ ⊢ (iprop(∃ d, owns (c : Thread nD τ) scM fullShare d) : sProp 𝕄) from by
    iintro ⟨-, -, H⟩; iexact H).trans (hin c)

theorem hout_main (hout : ∀ c : Dev nD, (dats m 0 c).Φ (Fin.last cfg0.N) ⊢ (iprop(∃ d, owns (c : Thread nD τ) scM fullShare d) : sProp 𝕄)) (c : Dev nD) :
    (dats m 0 c).Φ (Fin.last cfg0.N) ⊢ (iprop(emp ∗ Pipeline.scopedRest spec0 c) : sProp 𝕄) := by
  rw [scopedRest_eq]
  exact (hout c).trans (by
    iintro H; isplitr
    · iempintro
    · iexact H)

theorem hY_main (c : Dev nD) (s' : Phys nD τ sig (Elt F)) :
    (iprop(emp ∗ Zfin m c ∗ SI s') : sProp 𝕄)
      ⊢ |={Set.univ}=> iprop(⌜∀ b ∈ Pipeline.restRefs sig spec0, s'.mem.mem ((c.tc : Thread nD τ).loc b) = Vfin m c (Proc.devRef .tc b)⌝ ∗ SI s') := by
  iintro ⟨-, HU, HSI⟩
  unfold Zfin Pipeline.unscopedRest
  imodintro
  iapply (pointsTo_read_all (Pipeline.restRefs sig spec0) (fun b => (c.tc : Thread nD τ).loc b) (fun b => Vfin m c (Proc.devRef .tc b)) s')
  isplitl [HU] <;> iassumption

/-! ## @main around the region -/

/-- The lines after the region allocate nothing. -/
theorem hostOps1_fresh : (hostOps1 : List (HloOp τ sig (Elt F))).Forall fun op => op.fresh = ∅ := by
  simp only [List.Forall]; repeat' constructor

/-- Nor do the four stretches before it. -/
theorem pre_fresh : ([hostOps0, hostOps0_1, hostOps0_2, hostOps0_3] : List (List (HloOp τ sig (Elt F)))).Forall
    fun ops => ops.Forall fun op => op.fresh = ∅ := by
  simp only [List.Forall]; repeat' constructor

/-- @main is the four stretches, the region, and the last stretch: holding the boundary and the unscoped buffers at
    the launch contents it reduces to the region continued by the last stretch, holding them at `V`. -/
theorem hmain_main : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [hostOps0, hostOps0_1, hostOps0_2, hostOps0_3] [hostOps1]
    ⟨hostOps0_sub, hostOps0_1_sub, hostOps0_2_sub, hostOps0_3_sub⟩ (pre_fresh) main_chain

/-! ## The arrays at the region's entry: the shared array split between its two windows -/

/-- The buffers behind the windows' arrays: the representations (read by both input windows) and the output. -/
theorem img_arr : Finset.univ.image (Pipeline.arrRef spec0) = {main_v11, main_v12} := by decide

theorem share0 (c : Dev nD) : (dats m 0 c).share 0 = fullShare.left := rfl
theorem share1 (c : Dev nD) : (dats m 0 c).share 1 = fullShare.right := rfl
theorem share2 (c : Dev nD) : (dats m 0 c).share 2 = fullShare := rfl

/-- The proof data's arrays at contents `G`, window by window: the shared array's two halves and the output. -/
theorem arrays_eq3 (c : Dev nD) (G : (w : Fin cfg0.W) → Buf (Elt F) ((cfg0.win w).arr.view.loc (c.tc : Thread nD τ))) :
    ((dats m 0 c).arrays G : sProp 𝕄)
      = iprop((((c.tc : Thread nD τ).loc main_v11) ↦{fullShare.left} G 0) ∗ (((c.tc : Thread nD τ).loc main_v11) ↦{fullShare.right} G 1)
          ∗ (((c.tc : Thread nD τ).loc main_v12) ↦{fullShare} G 2)) := by
  unfold Dat.arrays
  rw [bigSep_W0, share0, share1, share2, (arr_whole0 0).set_eq_univ, (arr_whole0 2).set_eq_univ]

/-- At the entry the representations' points-to is split in two halves, one per input window. -/
theorem hsplit_main (c : Dev nD) :
    (Pipeline.arrBufs spec0 c (V m c) : sProp 𝕄) ⊢ (dats m 0 c).arrays ((dats m 0 c).arrAt · 0) := by
  rw [arrays_eq3]
  unfold Pipeline.arrBufs
  rw [img_arr, bigSep_insert (by decide), bigSep_singleton]
  show (iprop((((c.tc : Thread nD τ).loc main_v11) ↦{fullShare} V m c main_v11) ∗ (((c.tc : Thread nD τ).loc main_v12) ↦{fullShare} V m c main_v12)) : sProp 𝕄)
    ⊢ iprop((((c.tc : Thread nD τ).loc main_v11) ↦{fullShare.left} V m c main_v11) ∗ (((c.tc : Thread nD τ).loc main_v11) ↦{fullShare.right} V m c main_v11)
        ∗ (((c.tc : Thread nD τ).loc main_v12) ↦{fullShare} V m c main_v12))
  iintro ⟨H11, H12⟩
  ihave H11 := (pointsTo_share (PosShare.mem_left_op_right fullShare)).1 $$ H11
  icases H11 with ⟨Hl, Hr⟩
  isplitl [Hl]; · iexact Hl
  isplitl [Hr]; · iexact Hr
  iexact H12

/-! ## The lines after the region -/

/-- The buffers the lines after the region run within: every unscoped TensorCore reference but the representations
    (whose two halves stay framed): the output array and the buffers that bypass the region. -/
def tailS : Finset (DevRef τ sig) :=
  (insert main_v12 (Pipeline.restRefs sig spec0)).map ⟨Proc.devRef (sig := sig) (.tc : Proc τ), Proc.devRef_injective _⟩

/-- The output array is a window's array, so it is not among the bypassing buffers. -/
theorem v12_not_rest : main_v12 ∉ Pipeline.restRefs sig spec0 := fun h =>
  (Finset.mem_sdiff.mp h).2 (Finset.mem_image.mpr ⟨2, Finset.mem_univ _, rfl⟩)

/-- That set held at `W`: the output array and the bypassing buffers, at `W`. -/
theorem held_tailS (c : Dev nD) (W : Valuation τ sig (Elt F)) :
    (StableHlo.held (c.tc : Thread nD τ) tailS W : sProp 𝕄)
      = iprop((((c.tc : Thread nD τ).loc main_v12) ↦{fullShare} W (Proc.devRef .tc main_v12))
          ∗ Pipeline.unscopedRest spec0 c (fun b => W (Proc.devRef .tc b))) := by
  unfold StableHlo.held tailS Pipeline.unscopedRest
  rw [bigSep_map, bigSep_insert v12_not_rest]
  rfl

/-- No line after the region touches the representations. -/
theorem hostOps1_noV11 : (hostOps1 : List (HloOp τ sig (Elt F))).Forall fun op => Proc.devRef .tc main_v11 ∉ op.bufs := by
  simp only [List.Forall, StableHlo.reshape_bufs, StableHlo.binary_bufs, StableHlo.unary_bufs, StableHlo.nullary_bufs,
    Finset.mem_insert, Finset.mem_singleton, not_or]
  repeat' constructor
  all_goals exact StableHlo.devRef_ne_of_ne (by decide)

/-- No line after the region writes the output array. -/
theorem hostOps1_noW12 : (hostOps1 : List (HloOp τ sig (Elt F))).Forall fun op => Proc.devRef .tc main_v12 ∉ op.writes := by
  simp only [List.Forall, StableHlo.reshape_writes, StableHlo.binary_writes, StableHlo.unary_writes, StableHlo.nullary_writes,
    Finset.mem_singleton]
  repeat' constructor
  all_goals exact StableHlo.devRef_ne_of_ne (by decide)

/-- An operation on TensorCore references that does not touch the representations runs within `tailS`. -/
theorem sub_tailS (op : HloOp τ sig (Elt F)) (h₁ : op.bufs ⊆ StableHlo.tcRefs τ sig) (h₂ : Proc.devRef .tc main_v11 ∉ op.bufs) :
    op.bufs ⊆ tailS := by
  classical
  intro b hb
  have hu : b ∈ Pipeline.ucRefs τ sig := Pipeline.sub_ucRefs op h₁ hb
  simp only [tailS, Pipeline.ucRefs, StableHlo.tcRefs, Pipeline.restRefs, Finset.mem_map, Finset.mem_filter, Finset.mem_insert,
    Finset.mem_sdiff, Finset.mem_image, Finset.mem_univ, true_and, Function.Embedding.coeFn_mk] at hu ⊢
  obtain ⟨⟨r, rfl⟩, hr⟩ := hu
  refine ⟨r, ?_, rfl⟩
  by_cases h : r = main_v12
  · exact Or.inl h
  · refine Or.inr ⟨hr, ?_⟩
    rintro ⟨w, hw⟩
    have hw' : r = main_v11 ∨ r = main_v12 := by
      have : r ∈ Finset.univ.image (Pipeline.arrRef spec0) := Finset.mem_image.mpr ⟨w, Finset.mem_univ _, hw⟩
      rw [img_arr] at this
      simpa only [Finset.mem_insert, Finset.mem_singleton] using this
    rcases hw' with rfl | rfl
    · exact h₂ hb
    · exact h rfl

/-- The set at the region's exit: the output array at what the write-backs left, the bypassing buffers as the region
    found them. -/
theorem held_exit (c : Dev nD) :
    (StableHlo.held (c.tc : Thread nD τ) tailS (Wexit m c) : sProp 𝕄)
      = iprop((((c.tc : Thread nD τ).loc main_v12) ↦{fullShare} (dats m 0 c).arrAt 2 cfg0.N) ∗ Zin m c) := by
  have h1 : Wexit m c (Proc.devRef .tc main_v12) = (dats m 0 c).arrAt 2 cfg0.N := Function.update_self _ _ _
  have h2 : (Pipeline.unscopedRest spec0 c (fun b => Wexit m c (Proc.devRef .tc b)) : sProp 𝕄) = Zin m c := by
    unfold Zin Pipeline.unscopedRest
    exact bigSep_congr fun b hb => by
      have hne : b ≠ main_v12 := fun e => by subst e; exact v12_not_rest hb
      show (((c.tc : Thread nD τ).loc b) ↦{fullShare} Wexit m c (Proc.devRef .tc b) : sProp 𝕄) = _
      have hv : Wexit m c (Proc.devRef .tc b) = V m c b := Function.update_of_ne (StableHlo.devRef_ne_of_ne hne) _ _
      rw [hv]
  rw [held_tailS, h1, h2]

/-- The set at the end of @main: the output array still at what the write-backs left (no later line writes it), the
    bypassing buffers at the end contents. -/
theorem held_fin (c : Dev nD) :
    (StableHlo.held (c.tc : Thread nD τ) tailS (Vfin m c) : sProp 𝕄)
      = iprop((((c.tc : Thread nD τ).loc main_v12) ↦{fullShare} (dats m 0 c).arrAt 2 cfg0.N) ∗ Zfin m c) := by
  have h1 : Vfin m c (Proc.devRef .tc main_v12) = (dats m 0 c).arrAt 2 cfg0.N :=
    (StableHlo.after_of_forall_not_mem _ _ (List.forall_iff_forall_mem.mp hostOps1_noW12)).trans (Function.update_self _ _ _)
  rw [held_tailS, h1]

set_option backward.isDefEq.respectTransparency.types false in
/-- From the region's exit the last stretch runs within the output array and the bypassing buffers, the two halves of
    the representations framed, and hands back the arrays as the region left them and the bypassing buffers at the end
    contents. -/
theorem htail_main (c : Dev nD) (Q' : PUnit → sProp 𝕄) :
    iprop((iprop((dats m 0 c).arrays ((dats m 0 c).arrAt · cfg0.N) ∗ Zfin m c) -∗ Q' ⟨⟩)
        ∗ boundary (c.tc : Thread nD τ) ∗ (dats m 0 c).arrays ((dats m 0 c).arrAt · cfg0.N) ∗ Zin m c)
      ⊢ wp frame (wpE (Pipeline.defs (fun p => (cfgs p).toPCfg (Val := Elt F)) defs₀) (Variants.lift Variants.none) (c.tc : Thread nD τ) none) Set.univ
          (Pipeline.chain [StableHlo.seq hostOps1]) Q' := by
  rw [arrays_eq3]
  have hrun := Pipeline.wp_seqs_then (Ix := Unit) (Name := ℕ) (U := UR sig nD τ) (Lvl := ℕ) (fun p => (cfgs p).toPCfg (Val := Elt F)) defs₀ Variants.none c tailS []
    (K := Q') [hostOps1]
    (fun ops hops op hop => by
      rcases List.mem_singleton.mp hops with rfl
      exact sub_tailS op ((List.forall_iff_forall_mem.mp hostOps1_sub) op hop) ((List.forall_iff_forall_mem.mp hostOps1_noV11) op hop))
    (fun ops hops op hop => by
      rcases List.mem_singleton.mp hops with rfl
      exact (List.forall_iff_forall_mem.mp hostOps1_fresh) op hop)
    (Wexit m c)
  rw [show ([hostOps1] : List (List (HloOp τ sig (Elt F)))).flatten = hostOps1 from by simp only [List.flatten_cons, List.flatten_nil, List.append_nil],
    show ([hostOps1] : List (List (HloOp τ sig (Elt F)))).map StableHlo.seq ++ [] = [StableHlo.seq hostOps1] from rfl,
    held_exit, held_fin] at hrun
  iintro ⟨Hk, Hb, ⟨Hl, Hr, H12⟩, HZ⟩
  iapply hrun $$ [Hb H12 HZ]
  · isplitl [Hb]; · iexact Hb
    isplitl [H12]; · iexact H12
    iexact HZ
  iintro ⟨-, H12, HZ⟩
  rw [Pipeline.chain_nil, wp_pure]
  imodintro
  iapply Hk
  isplitr [HZ]
  · isplitl [Hl]; · iexact Hl
    isplitl [Hr]; · iexact Hr
    iexact H12
  · iexact HZ

/-- Every weakly fair execution of @main terminates without a fault, and every unscoped buffer that is not one of the
    pipeline's arrays ends at `Vfin`. -/
theorem run_main (hbody : ∀ c : Dev nD, Pipeline.BodyObligationLoose (dats (F := F) m 0 c) (defs₀ (F := F)) Variants.none () Set.univ)
    (hin : ∀ c : Dev nD, (iprop(∃ d, owns (c : Thread nD τ) scM fullShare d) : sProp 𝕄) ⊢ (dats m 0 c).Φ 0)
    (hout : ∀ c : Dev nD, (dats m 0 c).Φ (Fin.last cfg0.N) ⊢ (iprop(∃ d, owns (c : Thread nD τ) scM fullShare d) : sProp 𝕄)) :
    θ_run defs (onTc (τ := τ) (main (F := F))) ⟨m, fun _ => 0, ρ⟩ (fun r => ∀ c : Dev nD, ∀ b ∈ Pipeline.restRefs sig spec0,
      r.2.mem ((c.tc : Thread nD τ).loc b) = Vfin m c (Proc.devRef .tc b)) := by
  exact Pipeline.θ_run_region_noSem_pf_tail (fun p => (cfgs p).toPCfg) (fun p => (cfgs p).toPCfg_adm) (dats m) () cellOf_inj (0 : Fin 1)
    winFacts₀0 (Pipeline.PreFacts.none _) emb₁ defs₀ Variants.none m ρ main (fun _ => Pipeline.chain [StableHlo.seq hostOps1])
    hbody block_pos0 arr_whole0 stage_whole0 (fun _ _ => rfl)
    (u₀ := initOf (Pipeline.cells cfgs cellOf_inj) (Pipeline.launchToks cfgs cellOf_inj)) (hu₀ := .rfl)
    (V := V m) (hmain := hmain_main m) (hsplit := hsplit_main m) (hpf := fun _ k => k.elim0)
    (X := fun _ => iprop(emp)) (Y := fun _ => iprop(emp)) (Z := Zin m) (Z' := Zfin m)
    (hX := hX_main m) (hin := hin_main m hin) (hout := hout_main m hout) (htail := htail_main m)
    (QY := fun c s => ∀ b ∈ Pipeline.restRefs sig spec0, s.mem ((c.tc : Thread nD τ).loc b) = Vfin m c (Proc.devRef .tc b))
    (hY := hY_main m) (hQ := fun s h c => (h c).2.2)

end Cert.KernelIdeal.Fr

end
-- ==== Proof.KI.Frame.lean ====
/-
  The frame: the program runs to the end without a fault and leaves both arguments as it found them.  No line of the
  program writes an argument (each line writes only its own fresh result buffer), and the region's windows are on
  other arrays.
-/
import proofs.«166630_j78288663871843_1_alg».proof.Proof.KI.Body
import proofs.«166630_j78288663871843_1_alg».proof.Proof.KI.Launch
import Idealize.ShloMosaic.Lib.StableHlo.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments and the result are unscoped buffers that are no array of the pipeline. -/
theorem mem_rest_arg0 : main_arg0 ∈ Pipeline.restRefs sig spec0 := by decide
theorem mem_rest_arg1 : main_arg1 ∈ Pipeline.restRefs sig spec0 := by decide
theorem mem_rest_v24 : main_v24 ∈ Pipeline.restRefs sig spec0 := by decide

/-- The first argument is never written. -/
theorem Vfin_arg0 (c : Dev nD) : Vfin m c (Proc.devRef .tc main_arg0) = m ((c.tc : Thread nD τ).loc main_arg0) := by
  show StableHlo.after hostOps1 (Wexit m c) (Proc.devRef .tc main_arg0) = _
  simp only [hostOps1]
  after_results
  refine (Function.update_of_ne (StableHlo.devRef_ne_of_ne (by decide)) _ _).trans ?_
  show StableHlo.after (List.flatten [hostOps0, hostOps0_1, hostOps0_2, hostOps0_3]) (fun b => m (c, b)) (Proc.devRef .tc main_arg0) = _
  simp only [hostOps0, hostOps0_1, hostOps0_2, hostOps0_3, List.flatten_cons, List.flatten_nil, List.append_nil, List.cons_append, List.nil_append]
  after_results

/-- Nor is the second. -/
theorem Vfin_arg1 (c : Dev nD) : Vfin m c (Proc.devRef .tc main_arg1) = m ((c.tc : Thread nD τ).loc main_arg1) := by
  show StableHlo.after hostOps1 (Wexit m c) (Proc.devRef .tc main_arg1) = _
  simp only [hostOps1]
  after_results
  refine (Function.update_of_ne (StableHlo.devRef_ne_of_ne (by decide)) _ _).trans ?_
  show StableHlo.after (List.flatten [hostOps0, hostOps0_1, hostOps0_2, hostOps0_3]) (fun b => m (c, b)) (Proc.devRef .tc main_arg1) = _
  simp only [hostOps0, hostOps0_1, hostOps0_2, hostOps0_3, List.flatten_cons, List.flatten_nil, List.append_nil, List.cons_append, List.nil_append]
  after_results

/-- The run of the whole program, every bypassing buffer at its final contents. -/
theorem run_all : θ_run defs (onTc (τ := τ) (main (F := F))) ⟨m, fun _ => 0, ρ⟩ (fun r => ∀ c : Dev nD, ∀ b ∈ Pipeline.restRefs sig spec0,
      r.2.mem ((c.tc : Thread nD τ).loc b) = Vfin m c (Proc.devRef .tc b)) :=
  run_main m ρ (fun c => (body_obligation m c).loose) (hin m) (hout m)

/-- THE FRAME: every weakly fair execution terminates without a fault, the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_arg0 mem_rest_arg0).trans (Vfin_arg0 m c), (h c main_arg1 mem_rest_arg1).trans (Vfin_arg1 m c)⟩)
    (run_all m ρ)

end Cert.KernelIdeal.Fr

end
-- ==== Proof.Spec.lean ====
/-
  The contrastive loss both programs compute, as a function of the matrix `R` of the 8192 normalised
  representations (128 coordinates each) over the extended reals.

  The similarity of rows `r` and `c` is their dot product.  Row `r`'s denominator is the sum over every OTHER row
  `c` of `exp (sim r c)`; its numerator is `exp` of the similarity with its partner, the row 4096 further on
  (cyclically): the first 4096 rows come from one argument, the last 4096 from the other, and partners are the two
  views of one sample.  The loss is the mean over the rows of `-log (numerator / denominator)`, the mean's divisor the
  extended real the float word of 8192.0 denotes.
-/
import Idealize.ShloMosaic.PureOps.Ideal
import Idealize.ShloMosaic.PureOps.Ideal.Laws
import Idealize.ShloMosaic.Lib.IdealHost
import Idealize.ShloMosaic.Lib.ValueIdx

noncomputable section

namespace Cert.Spec

open Idealize.ShloMosaic

/-- The representations: 8192 rows of 128 coordinates. -/
abbrev Reps := Fin 8192 → Fin 128 → EReal

/-- The dot product of rows `r` and `c`. -/
def sim (R : Reps) (r c : Fin 8192) : EReal := ∑ d : Fin 128, R r d * R c d

/-- Row `r`'s denominator: `exp` of its similarity with every other row, summed. -/
def denom (R : Reps) (r : Fin 8192) : EReal := ∑ c : Fin 8192, if r = c then (0 : EReal) else Ideal.exp (sim R r c)

/-- The row 4096 further on, cyclically. -/
def partner (k : Fin 8192) : Fin 8192 := ⟨(k.val + 4096) % 8192, Nat.mod_lt _ (by norm_num)⟩

/-- Row `k`'s numerator. -/
def numer (R : Reps) (k : Fin 8192) : EReal := Ideal.exp (sim R k (partner k))

/-- The mean of `-log (num / den)` over the rows. -/
def lossOf (num den : Fin 8192 → EReal) : EReal :=
  Ideal.div (∑ r : Fin 8192, -(Ideal.log (Ideal.div (num r) (den r)))) (Ideal.ofBits .f32 0x46000000#32)

/-- The loss. -/
def loss (R : Reps) : EReal := lossOf (numer R) (denom R)

/-- The similarity is symmetric. -/
theorem sim_comm (R : Reps) (r c : Fin 8192) : sim R r c = sim R c r :=
  Finset.sum_congr rfl fun d _ => mul_comm _ _

/-- Dividing by the float word of 1.0 changes nothing. -/
theorem div_one_word (x : EReal) : Ideal.div x (Ideal.ofBits .f32 0x3F800000#32) = x := by
  rw [Ideal.ofBits_one_f32]
  have h := Ideal.div_coe (y := 1) one_ne_zero x
  simp only [EReal.coe_one, div_one, mul_one] at h
  exact h

/-- Multiplying by the float word of 1.0 changes nothing. -/
theorem mul_one_word (x : EReal) : x * Ideal.ofBits .f32 0x3F800000#32 = x := by
  rw [Ideal.ofBits_one_f32, mul_one]

/-- The float word of 0.0 is the zero of a sum. -/
theorem zero_word_add (x : EReal) : Ideal.ofBits .f32 0x00000000#32 + x = x := by
  rw [Ideal.ofBits_zero_f32, zero_add]

end Cert.Spec

end
-- ==== Proof.Reps.lean ====
/-
  The matrix of normalised representations as the reference program computes it, read as a matrix of extended
  reals: the first 4096 rows are the rows of the second argument, each divided by `max (its norm, 1e-12)`, the
  last 4096 those of the first argument.
-/
import proofs.«166630_j78288663871843_1_alg».proof.Proof.Gen.ReferenceIdeal.Read
import proofs.«166630_j78288663871843_1_alg».proof.Proof.Spec

set_option maxRecDepth 16384

noncomputable section

namespace Cert.Bridge

open Idealize.ShloMosaic Idealize.ShloMosaic.TcCoe Idealize.SL.Sem Idealize.ShloMosaic.ValueIdx
open Cert.ReferenceIdeal Cert.ReferenceIdeal.Read

/-- The representations of the arguments `x0`, `x1` (the reference's stacked, normalised rows). -/
def reps (x0 x1 : FVec Ideal S4096x128 .f32) : Cert.Spec.Reps :=
  fun r d => val_main_v10 (F := Ideal) x0 x1 (ix2 r d)

/-- The two halves of the second argument's normalised rows and the first's. -/
def repsLo (x1 : FVec Ideal S4096x128 .f32) (k : Fin 4096) (d : Fin 128) : EReal := val_main_v4 (F := Ideal) x1 (ix2 k d)
def repsHi (x0 : FVec Ideal S4096x128 .f32) (k : Fin 4096) (d : Fin 128) : EReal := val_main_v9 (F := Ideal) x0 (ix2 k d)

/-- The first 4096 rows are the second argument's. -/
theorem reps_lo (x0 x1 : FVec Ideal S4096x128 .f32) (k : Fin 4096) (d : Fin 128) :
    reps x0 x1 ⟨k.val, by omega⟩ d = repsLo x1 k d := by
  unfold reps repsLo val_main_v10
  exact concatenate_pair_apply_left (t := S8192x128) (s₁ := S4096x128) (s₂ := S4096x128) 0 _ _ _
    (ix2 (⟨k.val, by omega⟩ : Fin 8192) d) rfl (ix2 k d)
    (fun c => match c with
      | ⟨0, _⟩ => rfl
      | ⟨1, _⟩ => rfl)

/-- The last 4096 rows are the first argument's. -/
theorem reps_hi (x0 x1 : FVec Ideal S4096x128 .f32) (k : Fin 4096) (d : Fin 128) :
    reps x0 x1 ⟨k.val + 4096, by omega⟩ d = repsHi x0 k d := by
  unfold reps repsHi val_main_v10
  exact concatenate_pair_apply_right (t := S8192x128) (s₁ := S4096x128) (s₂ := S4096x128) 0 _ _ _
    (ix2 (⟨k.val + 4096, by omega⟩ : Fin 8192) d) rfl rfl (ix2 k d)
    (fun c => match c with
      | ⟨0, _⟩ => fun h => absurd rfl h
      | ⟨1, _⟩ => fun _ => rfl) rfl

end Cert.Bridge

end
-- ==== Proof.KV.HostVal.lean ====
/-
  The host lines of the kernel's program, over the extended reals.  Before the region they normalise the rows of
  both arguments exactly as the reference does, stack them and round them to bf16 (the identity here): the array both
  windows read is the reference's matrix of representations.
-/
import proofs.«166630_j78288663871843_1_alg».proof.Proof.KI.Setup
import proofs.«166630_j78288663871843_1_alg».proof.Proof.Reps
import Idealize.ShloMosaic.Lib.ValueLayout
import Idealize.ShloMosaic.Lib.Pipeline.Value
import Idealize.ShloMosaic.Lib.StableHlo.Run

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Fr

variable (m : (ℓ : Loc nD τ sig) → Buf (Elt Ideal) ℓ)

/-- The two argument arrays on core `c`. -/
abbrev arg0 (c : Dev nD) : FVec Ideal S4096x128 .f32 := m ((c.tc : Thread nD τ).loc main_arg0)
abbrev arg1 (c : Dev nD) : FVec Ideal S4096x128 .f32 := m ((c.tc : Thread nD τ).loc main_arg1)

/-! ## The arrays before the region, for any float instance

Both programs apply the same operations to each argument, so each array the region finds is the reference's stage as a
term: the two sides unfold to the same applications. -/

section Stages

variable {F : FTy → Type} [FloatOps F] (mF : (ℓ : Loc nD τ sig) → Buf (Elt F) ℓ)

/-- `main_v4` is the reference's normalisation of the second argument. -/
theorem V_v4_stage (c : Dev nD) :
    (V (F := F) mF c main_v4 : FVec F S4096x128 .f32)
      = Cert.ReferenceIdeal.Read.val_main_v4 (F := F) (mF ((c.tc : Thread nD τ).loc main_arg1)) := by
  dsimp only [V, V0]
  simp only [hostOps0, hostOps0_1, hostOps0_2, hostOps0_3, List.flatten_cons, List.flatten_nil, List.append_nil, List.cons_append, List.nil_append]
  after_results
  unfold Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_cst
    Cert.ReferenceIdeal.Read.val_main_call0_v2 Cert.ReferenceIdeal.Read.val_main_call0_v1
    Cert.ReferenceIdeal.Read.val_main_call0_v0 Cert.ReferenceIdeal.Read.val_main_call0_cst
  rfl

/-- `main_v9` is the reference's normalisation of the first argument. -/
theorem V_v9_stage (c : Dev nD) :
    (V (F := F) mF c main_v9 : FVec F S4096x128 .f32)
      = Cert.ReferenceIdeal.Read.val_main_v9 (F := F) (mF ((c.tc : Thread nD τ).loc main_arg0)) := by
  dsimp only [V, V0]
  simp only [hostOps0, hostOps0_1, hostOps0_2, hostOps0_3, List.flatten_cons, List.flatten_nil, List.append_nil, List.cons_append, List.nil_append]
  after_results
  unfold Cert.ReferenceIdeal.Read.val_main_v9 Cert.ReferenceIdeal.Read.val_main_v8 Cert.ReferenceIdeal.Read.val_main_v7
    Cert.ReferenceIdeal.Read.val_main_v6 Cert.ReferenceIdeal.Read.val_main_v5 Cert.ReferenceIdeal.Read.val_main_cst_0
    Cert.ReferenceIdeal.Read.val_main_call1_v2 Cert.ReferenceIdeal.Read.val_main_call1_v1
    Cert.ReferenceIdeal.Read.val_main_call1_v0 Cert.ReferenceIdeal.Read.val_main_call1_cst
  rfl

/-- `main_v11` is the reference's stacked matrix, converted to bf16. -/
theorem V_v11_stage (c : Dev nD) :
    (V (F := F) mF c main_v11 : FVec F S8192x128 .bf16)
      = truncf .bf16 (Cert.ReferenceIdeal.Read.val_main_v10 (F := F) (mF ((c.tc : Thread nD τ).loc main_arg0))
          (mF ((c.tc : Thread nD τ).loc main_arg1))) bitsLt_bf16_f32 := by
  dsimp only [V, V0]
  simp only [hostOps0, hostOps0_1, hostOps0_2, hostOps0_3, List.flatten_cons, List.flatten_nil, List.append_nil, List.cons_append, List.nil_append]
  after_results
  unfold Cert.ReferenceIdeal.Read.val_main_v10
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_cst
    Cert.ReferenceIdeal.Read.val_main_call0_v2 Cert.ReferenceIdeal.Read.val_main_call0_v1
    Cert.ReferenceIdeal.Read.val_main_call0_v0 Cert.ReferenceIdeal.Read.val_main_call0_cst
    Cert.ReferenceIdeal.Read.val_main_v9 Cert.ReferenceIdeal.Read.val_main_v8 Cert.ReferenceIdeal.Read.val_main_v7
    Cert.ReferenceIdeal.Read.val_main_v6 Cert.ReferenceIdeal.Read.val_main_v5 Cert.ReferenceIdeal.Read.val_main_cst_0
    Cert.ReferenceIdeal.Read.val_main_call1_v2 Cert.ReferenceIdeal.Read.val_main_call1_v1
    Cert.ReferenceIdeal.Read.val_main_call1_v0 Cert.ReferenceIdeal.Read.val_main_call1_cst
  rfl

end Stages

/-! ## Over the extended reals, entry by entry -/

/-- When the region is entered, `main_v4` holds the second argument's normalised rows, -/
theorem V_v4 (c : Dev nD) (k : Fin 4096) (d : Fin 128) :
    ((V (F := Ideal) m c main_v4 : FVec Ideal S4096x128 .f32) (ix2 k d) : EReal) = Cert.Bridge.repsLo (arg1 m c) k d :=
  congrFun (V_v4_stage (F := Ideal) m c) (ix2 k d)

/-- `main_v9` the first argument's, -/
theorem V_v9 (c : Dev nD) (k : Fin 4096) (d : Fin 128) :
    ((V (F := Ideal) m c main_v9 : FVec Ideal S4096x128 .f32) (ix2 k d) : EReal) = Cert.Bridge.repsHi (arg0 m c) k d :=
  congrFun (V_v9_stage (F := Ideal) m c) (ix2 k d)

/-- and the array both windows read, `main_v11`, the stacked representations: the conversion to bf16 changes no
    extended real. -/
theorem V_v11 (c : Dev nD) (r : Fin 8192) (d : Fin 128) :
    ((V (F := Ideal) m c main_v11 : FVec Ideal S8192x128 .bf16) (ix2 r d) : EReal) = Cert.Bridge.reps (arg0 m c) (arg1 m c) r d :=
  congrFun (V_v11_stage (F := Ideal) m c) (ix2 r d)

end Cert.KernelIdeal.Val

end
-- ==== Proof.KV.Tail.lean ====
/-
  The host lines after the region, over the extended reals: they turn the column of denominators into the loss.  Each
  row's numerator is `exp` of the dot product of the two normalised rows of its sample (divided by the float word of
  1.0), the same for a row and its partner; the loss is the mean of `-log (numerator / denominator)`.
-/
import proofs.«166630_j78288663871843_1_alg».proof.Proof.KI.Setup
import proofs.«166630_j78288663871843_1_alg».proof.Proof.Spec
import Idealize.ShloMosaic.Lib.ValueLayout
import Idealize.ShloMosaic.Lib.Pipeline.Value
import Idealize.ShloMosaic.Lib.StableHlo.Run

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Fr

/-- A row's sample: the row itself in the first half, the row 4096 back in the second. -/
def sampleOf (r : Fin 8192) : Fin 4096 := ⟨r.val % 4096, Nat.mod_lt _ (by norm_num)⟩

/-- The three arrays the lines after the region read, at their literal types. -/
abbrev W4 (W : Valuation τ sig (Elt Ideal)) : FVec Ideal S4096x128 .f32 := W (Proc.devRef .tc main_v4)
abbrev W9 (W : Valuation τ sig (Elt Ideal)) : FVec Ideal S4096x128 .f32 := W (Proc.devRef .tc main_v9)
abbrev W12 (W : Valuation τ sig (Elt Ideal)) : FVec Ideal S8192x1 .f32 := W (Proc.devRef .tc main_v12)

/-! ## The operations after the region, each read at an index -/

/-- The float word of zero plus the sum of a row: the row sum. -/
theorem rowSum_apply (y : FVec Ideal S4096x128 .f32) (k : Fin 4096) :
    (Host.reduceAdd y (constant (F := Ideal) S_ .f32 0x00000000#32) reducesTo_S4096x128_S4096_d1 h_S_ : FVec Ideal S4096 .f32) (ix1 k)
      = ∑ d : Fin 128, (y (ix2 k d) : EReal) := by
  simp only [Host.reduceAdd, Ideal.hostReduceAdd_def]
  rw [Ideal.hostReduceAdd_single reducesTo_S4096x128_S4096_d1 (by decide)]
  refine (Cert.Spec.zero_word_add _).trans (Finset.sum_congr rfl fun d _ => ?_)
  exact congrArg y (funext fun a => Fin.ext (by match a with | ⟨0, _⟩ => rfl | ⟨1, _⟩ => rfl))

/-- A scalar word broadcast to a vector reads the word everywhere. -/
theorem wordVec_apply (w : BitVec 32) (i : S4096.Idx) :
    (broadcastInDim S4096 ![] bcast_S_S4096 (constant (F := Ideal) S_ .f32 w) : FVec Ideal S4096 .f32) i = Ideal.ofBits .f32 w :=
  broadcastInDim_apply _ bcast_S_S4096 (constant (F := Ideal) S_ .f32 w) i (fun a => a.elim0) (fun a => a.elim0)

/-- A sample's numerator: `exp` of the dot product of its two rows. -/
theorem numer_apply (a b : FVec Ideal S4096x128 .f32) (k : Fin 4096) :
    (Host.exp (Host.divf (Host.reduceAdd (mulf a b) (constant (F := Ideal) S_ .f32 0x00000000#32) reducesTo_S4096x128_S4096_d1 h_S_)
        (broadcastInDim S4096 ![] bcast_S_S4096 (constant (F := Ideal) S_ .f32 0x3F800000#32))) : FVec Ideal S4096 .f32) (ix1 k)
      = Ideal.exp (∑ d : Fin 128, (a (ix2 k d) : EReal) * (b (ix2 k d) : EReal)) := by
  show Ideal.exp (Ideal.div
      ((Host.reduceAdd (mulf a b) (constant (F := Ideal) S_ .f32 0x00000000#32) reducesTo_S4096x128_S4096_d1 h_S_ : FVec Ideal S4096 .f32) (ix1 k))
      ((broadcastInDim S4096 ![] bcast_S_S4096 (constant (F := Ideal) S_ .f32 0x3F800000#32) : FVec Ideal S4096 .f32) (ix1 k))) = _
  rw [rowSum_apply, wordVec_apply, Cert.Spec.div_one_word]
  rfl

/-- A vector stacked on itself read at row `r` is the vector at `r`'s sample. -/
theorem stack_apply (e : FVec Ideal S4096 .f32) (r : Fin 8192) :
    (concatenate S8192 0 [⟨S4096, e⟩, ⟨S4096, e⟩] concatenates_S4096_S4096_S8192_d0 : FVec Ideal S8192 .f32) (ix1 r) = e (ix1 (sampleOf r)) := by
  by_cases h : r.val < 4096
  · refine concatenate_pair_apply_left (0 : Fin S8192.rank) e e concatenates_S4096_S4096_S8192_d0 (ix1 r) rfl (ix1 (sampleOf r)) (fun b => ?_)
    match b with
    | ⟨0, _⟩ => exact Nat.mod_eq_of_lt h
  · refine concatenate_pair_apply_right (0 : Fin S8192.rank) e e concatenates_S4096_S4096_S8192_d0 (ix1 r) rfl rfl (ix1 (sampleOf r)) (fun b hb => ?_) ?_
    · match b with
      | ⟨0, _⟩ => exact absurd rfl hb
    · show r.val % 4096 + 4096 = r.val
      have := r.isLt
      omega

/-- The column of denominators read as a vector. -/
theorem column_apply (w : FVec Ideal S8192x1 .f32) (r : Fin 8192) :
    (shapeCast S8192 w shapeCasts_S8192x1_S8192 : FVec Ideal S8192 .f32) (ix1 r) = w (ix2 r (0 : Fin 1)) := by
  refine shapeCast_apply w shapeCasts_S8192x1_S8192 (ix1 r) (ix2 r (0 : Fin 1)) ?_
  rw [Shape.rowMajor_val_two, Shape.rowMajor_val_one]
  show r.val * 1 + 0 = r.val
  omega

/-- The mean: the float word of zero plus the sum of all entries, divided by the word of 8192.0. -/
theorem mean_eq (y : FVec Ideal S8192 .f32) :
    (Host.divf (Host.reduceAdd y (constant (F := Ideal) S_ .f32 0x00000000#32) reducesTo_S8192_S_d0 h_S_) (constant (F := Ideal) S_ .f32 0x46000000#32) : FVec Ideal S_ .f32)
      = fun _ => Ideal.div (∑ r : Fin 8192, (y (ix1 r) : EReal)) (Ideal.ofBits .f32 0x46000000#32) := by
  funext i
  show Ideal.div ((Host.reduceAdd y (constant (F := Ideal) S_ .f32 0x00000000#32) reducesTo_S8192_S_d0 h_S_ : FVec Ideal S_ .f32) i) (Ideal.ofBits .f32 0x46000000#32) = _
  refine congrArg (Ideal.div · _) ?_
  simp only [Host.reduceAdd, Ideal.hostReduceAdd_def]
  refine (Ideal.hostReduceAdd_total reducesTo_S8192_S_d0 (fun b => b.elim0) y _ i).trans ?_
  refine (Cert.Spec.zero_word_add _).trans ?_
  refine Fintype.sum_equiv ⟨fun j => j 0, fun r => ix1 r, fun j => (eq_ix1 j).symm, fun r => rfl⟩ _ _ (fun j => ?_)
  exact congrArg y (eq_ix1 j)

/-- `-log (p / q)` entry by entry. -/
theorem negLogDiv_apply (p q : FVec Ideal S8192 .f32) (i : S8192.Idx) :
    (Host.negf (Host.log (Host.divf p q)) : FVec Ideal S8192 .f32) i = -(Ideal.log (Ideal.div (p i : EReal) (q i : EReal))) := rfl

/-- The composed lines after the region over any three arrays: the loss of the numerators and the denominators. -/
theorem tail_term (a b : FVec Ideal S4096x128 .f32) (w : FVec Ideal S8192x1 .f32) :
    (Host.divf
      (Host.reduceAdd
        (Host.negf (Host.log (Host.divf
          (concatenate S8192 0
            [⟨S4096, Host.exp (Host.divf (Host.reduceAdd (mulf a b) (constant (F := Ideal) S_ .f32 0x00000000#32) reducesTo_S4096x128_S4096_d1 h_S_)
                (broadcastInDim S4096 ![] bcast_S_S4096 (constant (F := Ideal) S_ .f32 0x3F800000#32)))⟩,
             ⟨S4096, Host.exp (Host.divf (Host.reduceAdd (mulf a b) (constant (F := Ideal) S_ .f32 0x00000000#32) reducesTo_S4096x128_S4096_d1 h_S_)
                (broadcastInDim S4096 ![] bcast_S_S4096 (constant (F := Ideal) S_ .f32 0x3F800000#32)))⟩]
            concatenates_S4096_S4096_S8192_d0)
          (shapeCast S8192 w shapeCasts_S8192x1_S8192))))
        (constant (F := Ideal) S_ .f32 0x00000000#32) reducesTo_S8192_S_d0 h_S_)
      (constant (F := Ideal) S_ .f32 0x46000000#32) : FVec Ideal S_ .f32)
    = fun _ => Cert.Spec.lossOf
        (fun r => Ideal.exp (∑ d : Fin 128, (a (ix2 (sampleOf r) d) : EReal) * (b (ix2 (sampleOf r) d) : EReal)))
        (fun r => (w (ix2 r (0 : Fin 1)) : EReal)) := by
  refine (mean_eq _).trans (funext fun _ => ?_)
  unfold Cert.Spec.lossOf
  refine congrArg (Ideal.div · _) (Finset.sum_congr rfl fun r _ => ?_)
  refine (negLogDiv_apply _ _ (ix1 r)).trans ?_
  rw [stack_apply, numer_apply, column_apply]

/-- The lines after the region, from ANY contents `W` of the buffers: the result is the mean of
    `-log (numerator / denominator)` with the denominators read off `main_v12` and the numerators computed from
    `main_v4` and `main_v9`. -/
theorem tail_value (W : Valuation τ sig (Elt Ideal)) :
    (StableHlo.after hostOps1 W (Proc.devRef .tc main_v24) : FVec Ideal S_ .f32) = fun _ => Cert.Spec.lossOf
      (fun r => Ideal.exp (∑ d : Fin 128, W4 W (ix2 (sampleOf r) d) * W9 W (ix2 (sampleOf r) d)))
      (fun r => W12 W (ix2 r (0 : Fin 1))) := by
  simp only [hostOps1]
  after_results
  exact tail_term (W4 W) (W9 W) (W12 W)

end Cert.KernelIdeal.Val

end
-- ==== Proof.KV.Payload.lean ====
/-
  The body's arithmetic read at an index, over the extended reals.  One update of the accumulator: to entry `a` of
  the column it adds the sum, over the 512 columns `b` of the tile, of `exp` of the dot product of row `a` of the row
  tile with row `b` of the column tile — except where the two rows are the SAME global row (the diagonal of the
  similarity matrix), which contributes zero.  The reset value is the zero column.
-/
import proofs.«166630_j78288663871843_1_alg».proof.Proof.Gen.KernelIdeal.Skeleton
import Idealize.ShloMosaic.Lib.IdealHost
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen

/-- The column view of a vector: entry (a, 0) of the [1024, 1] cast is entry a. -/
theorem cast_col_apply {α : Type} (v : S1024.Idx → α) (h : S1024.ShapeCasts S1024x1) (a : Fin 1024) :
    shapeCast S1024x1 v h (ix2 a (0 : Fin 1)) = v (ix1 a) := by
  refine shapeCast_apply v h (ix2 a (0 : Fin 1)) (ix1 a) ?_
  rw [Shape.rowMajor_val_two, Shape.rowMajor_val_one]
  show a.val = a.val * 1 + 0
  omega

/-- The transposed column tile at (d, b) is the column tile at (b, d). -/
theorem transpose_tile_apply {α : Type} (x : S512x128.Idx → α) (h : S512x128.Transposes [1, 0] S128x512)
    (d : Fin 128) (b : Fin 512) :
    transpose S128x512 [1, 0] x h (ix2 d b) = x (ix2 b d) :=
  transpose_apply [1, 0] x h (ix2 d b) (ix2 b d) (fun c => match c with
    | ⟨0, _⟩ => rfl
    | ⟨1, _⟩ => rfl)

/-- The sum over the lanes of row a. -/
theorem lane_sum_apply (v : FVec Ideal S1024x512 .f32) (h : S1024x512.Reduces [1] S1024)
    (hφ : FKind.Formats .f32) (hacc : (0x00000000#32 : BitVec 32) = 0x00000000#32) (a : Fin 1024) :
    (multiReduction (F := Ideal) .add [1] S1024 v 0x00000000#32 h hφ hacc (ix1 a) : EReal)
      = ∑ b : Fin 512, (v (ix2 a b) : EReal) := by
  refine (Ideal.multiReduction_add_single v 0x00000000#32 h hφ hacc (ix1 a)).trans ?_
  refine Finset.sum_congr rfl fun b _ => ?_
  exact congrArg v (funext fun c => Fin.ext (by match c with | ⟨0, _⟩ => rfl | ⟨1, _⟩ => rfl))

/-- The operand indices of the tile product at output index i and contraction index q, axis by axis: the row tile is
    read at (i 0, q), the transposed column tile at (q, i 1). -/
theorem lhs_tile_0 (i : S1024x512.Idx) (q : dot_S1024x128_S128x512_S1024x512_1_0_0_1_n_n.contr.Idx) :
    (dot_S1024x128_S128x512_S1024x512_1_0_0_1_n_n.lhsIdx i q 0).val = (i 0).val := by
  unfold DotDims.lhsIdx
  rw [dif_neg (show ¬(0 : Fin S1024x128.rank) ∈ dot_S1024x128_S128x512_S1024x512_1_0_0_1_n_n.lhsBatch by decide), dif_pos (show (0 : Fin S1024x128.rank) ∈ dot_S1024x128_S128x512_S1024x512_1_0_0_1_n_n.lhsNonContracting by decide)]
  rfl
theorem lhs_tile_1 (i : S1024x512.Idx) (q : dot_S1024x128_S128x512_S1024x512_1_0_0_1_n_n.contr.Idx) :
    (dot_S1024x128_S128x512_S1024x512_1_0_0_1_n_n.lhsIdx i q 1).val = (q ⟨0, by decide⟩).val :=
  dot_S1024x128_S128x512_S1024x512_1_0_0_1_n_n.lhsIdx_val_of_single rfl i q
theorem rhs_tile_0 (i : S1024x512.Idx) (q : dot_S1024x128_S128x512_S1024x512_1_0_0_1_n_n.contr.Idx) :
    (dot_S1024x128_S128x512_S1024x512_1_0_0_1_n_n.rhsIdx i q 0).val = (q ⟨0, by decide⟩).val :=
  dot_S1024x128_S128x512_S1024x512_1_0_0_1_n_n.rhsIdx_val_of_single rfl i q
theorem rhs_tile_1 (i : S1024x512.Idx) (q : dot_S1024x128_S128x512_S1024x512_1_0_0_1_n_n.contr.Idx) :
    (dot_S1024x128_S128x512_S1024x512_1_0_0_1_n_n.rhsIdx i q 1).val = (i 1).val := by
  unfold DotDims.rhsIdx
  rw [dif_neg (show ¬(1 : Fin S128x512.rank) ∈ dot_S1024x128_S128x512_S1024x512_1_0_0_1_n_n.rhsBatch by decide), dif_pos (show (1 : Fin S128x512.rank) ∈ dot_S1024x128_S128x512_S1024x512_1_0_0_1_n_n.rhsNonContracting by decide)]
  rfl

/-- The product of the row tile with the transposed column tile, into a zero accumulator, at (a, b): the dot product
    of row a with column b. -/
theorem matmul_tile_apply (x : FVec Ideal S1024x128 .bf16) (y : FVec Ideal S128x512 .bf16) (a : Fin 1024) (b : Fin 512) :
    (matmul dot_S1024x128_S128x512_S1024x512_1_0_0_1_n_n none x y (constant (F := Ideal) S1024x512 .f32 0x00000000#32) (ix2 a b) : EReal)
      = ∑ d : Fin 128, (x (ix2 a d) : EReal) * (y (ix2 d b) : EReal) := by
  refine (Ideal.matmul_constant_zero_apply dot_S1024x128_S128x512_S1024x512_1_0_0_1_n_n none x y (ix2 a b)).trans ?_
  rw [← Equiv.sum_comp (contrEquiv1 dot_S1024x128_S128x512_S1024x512_1_0_0_1_n_n 128 rfl rfl).symm]
  refine Finset.sum_congr rfl fun k _ => ?_
  have hk := contrEquiv1_symm_val dot_S1024x128_S128x512_S1024x512_1_0_0_1_n_n 128 rfl rfl k
  have el : dot_S1024x128_S128x512_S1024x512_1_0_0_1_n_n.lhsIdx (ix2 a b) ((contrEquiv1 dot_S1024x128_S128x512_S1024x512_1_0_0_1_n_n 128 rfl rfl).symm k) = ix2 a k := funext fun c => Fin.ext (by
    match c with
    | ⟨0, _⟩ => exact lhs_tile_0 _ _
    | ⟨1, _⟩ => exact (lhs_tile_1 _ _).trans hk)
  have er : dot_S1024x128_S128x512_S1024x512_1_0_0_1_n_n.rhsIdx (ix2 a b) ((contrEquiv1 dot_S1024x128_S128x512_S1024x512_1_0_0_1_n_n 128 rfl rfl).symm k) = ix2 k b := funext fun c => Fin.ext (by
    match c with
    | ⟨0, _⟩ => exact (rhs_tile_0 _ _).trans hk
    | ⟨1, _⟩ => exact rhs_tile_1 _ _)
  rw [el, er]

/-- The diagonal mask at (a, b) of tile (i0, i1): set exactly where global row 1024 i0 + a is global column 512 i1 + b. -/
theorem diag_mask_apply (i0 i1 : Nat) (h0 : i0 < 8) (h1 : i1 < 16) (hi0 : S1024x512.Iotas .tc 32 [0])
    (hi1 : S1024x512.Iotas .tc 32 [1]) (a : Fin 1024) (b : Fin 512) :
    cmpi .eq (addi (broadcast S1024x512 (Scalar.muli (BitVec.ofNat 32 i0) 1024#32)) (iota .tc S1024x512 32 [0] hi0))
        (addi (broadcast S1024x512 (Scalar.muli (BitVec.ofNat 32 i1) 512#32)) (iota .tc S1024x512 32 [1] hi1)) (ix2 a b)
      = if 1024 * i0 + a.val = 512 * i1 + b.val then 1#1 else 0#1 := by
  show IntOp.cmpi .eq (IntOp.addi (Scalar.muli (BitVec.ofNat 32 i0) 1024#32) (iota .tc S1024x512 32 [0] hi0 (ix2 a b)))
      (IntOp.addi (Scalar.muli (BitVec.ofNat 32 i1) 512#32) (iota .tc S1024x512 32 [1] hi1 (ix2 a b))) = _
  rw [iota_single_apply, iota_single_apply]
  show BitVec.ofBool ((BitVec.ofNat 32 i0 * 1024#32 + BitVec.ofNat 32 a.val) == (BitVec.ofNat 32 i1 * 512#32 + BitVec.ofNat 32 b.val)) = _
  have ha := a.isLt
  have hb := b.isLt
  have e0 : BitVec.ofNat 32 i0 * 1024#32 + BitVec.ofNat 32 a.val = BitVec.ofNat 32 (1024 * i0 + a.val) := by
    apply BitVec.eq_of_toNat_eq
    simp only [BitVec.toNat_add, BitVec.toNat_mul, BitVec.toNat_ofNat]
    omega
  have e1 : BitVec.ofNat 32 i1 * 512#32 + BitVec.ofNat 32 b.val = BitVec.ofNat 32 (512 * i1 + b.val) := by
    apply BitVec.eq_of_toNat_eq
    simp only [BitVec.toNat_add, BitVec.toNat_mul, BitVec.toNat_ofNat]
    omega
  rw [e0, e1]
  by_cases h : 1024 * i0 + a.val = 512 * i1 + b.val
  · rw [if_pos h, h]; simp
  · rw [if_neg h]
    have hne : BitVec.ofNat 32 (1024 * i0 + a.val) ≠ BitVec.ofNat 32 (512 * i1 + b.val) := fun e => h (by
      have := congrArg BitVec.toNat e
      simp only [BitVec.toNat_ofNat] at this
      omega)
    rw [beq_eq_false_iff_ne.mpr hne]
    rfl

/-- The reset value is zero everywhere. -/
theorem pay1_apply (j : S1024x1.Idx) : (k0_pay1 (F := Ideal) j : EReal) = 0 := by
  unfold k0_pay1
  rw [shapeCast_self]
  exact Ideal.ofBits_zero_f32

/-- One update of the accumulator, entry by entry. -/
theorem pay2_apply (i : grid0.Coords) (x0 : Vec Ideal S1024x128 .bf16) (x1 : Vec Ideal S512x128 .bf16) (s : Vec Ideal S1024x1 .f32) (a : Fin 1024) :
    (k0_pay2 (F := Ideal) i x0 x1 s (ix2 a (0 : Fin 1)) : EReal)
      = (s (ix2 a (0 : Fin 1)) : EReal) + ∑ b : Fin 512,
          (if 1024 * (i 0).val + a.val = 512 * (i 1).val + b.val then (0 : EReal)
           else Ideal.exp (∑ d : Fin 128, (x0 (ix2 a d) : EReal) * (x1 (ix2 b d) : EReal))) := by
  have h0 : (i 0).val < 8 := (i 0).isLt
  have h1 : (i 1).val < 16 := (i 1).isLt
  unfold k0_pay2
  refine (congrFun (shapeCast_self _ _) _).trans ?_
  refine (addf_apply _ _ _).trans ?_
  refine congrArg (_ + ·) ?_
  refine (cast_col_apply _ _ a).trans ?_
  refine (lane_sum_apply _ _ _ _ a).trans ?_
  refine Finset.sum_congr rfl fun b _ => ?_
  refine (select_apply _ _ _ _).trans ?_
  refine (congrArg (fun c => Scalar.select c _ _) (diag_mask_apply (i 0).val (i 1).val h0 h1 _ _ a b)).trans ?_
  by_cases h : 1024 * (i 0).val + a.val = 512 * (i 1).val + b.val
  · rw [if_pos h, if_pos h]
    refine (select_one _ _).trans ?_
    exact Ideal.ofBits_zero_f32
  · rw [if_neg h, if_neg h]
    refine (select_zero _ _).trans ?_
    refine congrArg Ideal.exp ?_
    refine (mulf_apply _ _ _).trans ?_
    refine (congrArg₂ (· * ·) (matmul_tile_apply _ _ a b) Ideal.ofBits_one_f32).trans ?_
    rw [mul_one]
    refine Finset.sum_congr rfl fun d _ => ?_
    exact congrArg₂ (· * ·) (congrFun (shapeCast_self _ _) _)
      ((transpose_tile_apply _ _ d b).trans (congrFun (shapeCast_self _ _) _))

end Cert.KernelIdeal.Val

end
-- ==== Proof.KV.Denoms.lean ====
/-
  The column of denominators the region leaves in its output array, over the extended reals.  Within a row tile the
  accumulator, reset at the first column tile, adds at each of the 16 column tiles the sums over that tile's 512
  columns; at the last it is copied out, and the eight row tiles' blocks tile the output.  Read through the two
  windows' blocks of the one array `X` they share, entry `r` is the sum over ALL 8192 rows `c ≠ r` of
  `exp` of the dot product of rows `r` and `c` of `X`.
-/
import proofs.«166630_j78288663871843_1_alg».proof.Proof.KI.Setup
import proofs.«166630_j78288663871843_1_alg».proof.Proof.KV.Payload
import proofs.«166630_j78288663871843_1_alg».proof.Proof.Spec
import Idealize.ShloMosaic.Lib.Pipeline.Value

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Fr

variable (m : (ℓ : Loc nD τ sig) → Buf (Elt Ideal) ℓ)

/-- The array both windows read, as a matrix. -/
def xmat (c : Dev nD) : Cert.Spec.Reps :=
  fun r d => ((V (F := Ideal) m c main_v11 : FVec Ideal S8192x128 .bf16) (ix2 r d) : EReal)

/-- The grid's coordinates and the three windows' block indices at point `t = 16 * ri + ci`: the row window and
    the output move with `ri`, the column window with `ci`; none moves along the second axis. -/
theorem pt_facts : ∀ t : Fin cfg0.N,
    ((grid0.coords t) 0).val = t.val / 16 ∧ ((grid0.coords t) 1).val = t.val % 16
    ∧ win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0 :=
  (by decide +kernel : ∀ t : Fin grid0.N, _)

/-- The row tile at point `t` is rows `1024 * (t / 16) ..` of the array. -/
theorem rowBlk_apply (c : Dev nD) (t : Fin cfg0.N) (x : S1024x128.Idx) (k : S8192x128.Idx)
    (hk0 : (k 0).val = 1024 * (t.val / 16) + (x 0).val) (hk1 : (k 1).val = (x 1).val) :
    (rowBlk m c t : Vec Ideal S1024x128 .bf16) x = (V (F := Ideal) m c main_v11 : Vec Ideal S8192x128 .bf16) k := by
  obtain ⟨-, -, e0, e1, -, -, -, -⟩ := pt_facts t
  unfold rowBlk iblk
  rw [View.read_apply]
  show V m c main_v11 _ = V m c main_v11 _
  congr 1
  funext a
  apply Fin.ext
  match a with
  | ⟨0, _⟩ => show win0_0.index t 0 * 1024 + 1 * (x 0).val = (k 0).val; rw [e0, hk0]; omega
  | ⟨1, _⟩ => show win0_0.index t 1 * 128 + 1 * (x 1).val = (k 1).val; rw [e1, hk1]; omega

/-- The column tile at point `t` is rows `512 * (t % 16) ..` of the same array. -/
theorem colBlk_apply (c : Dev nD) (t : Fin cfg0.N) (x : S512x128.Idx) (k : S8192x128.Idx)
    (hk0 : (k 0).val = 512 * (t.val % 16) + (x 0).val) (hk1 : (k 1).val = (x 1).val) :
    (colBlk m c t : Vec Ideal S512x128 .bf16) x = (V (F := Ideal) m c main_v11 : Vec Ideal S8192x128 .bf16) k := by
  obtain ⟨-, -, -, -, e0, e1, -, -⟩ := pt_facts t
  unfold colBlk iblk
  rw [View.read_apply]
  show V m c main_v11 _ = V m c main_v11 _
  congr 1
  funext a
  apply Fin.ext
  match a with
  | ⟨0, _⟩ => show win0_1.index t 0 * 512 + 1 * (x 0).val = (k 0).val; rw [e0, hk0]; omega
  | ⟨1, _⟩ => show win0_1.index t 1 * 128 + 1 * (x 1).val = (k 1).val; rw [e1, hk1]; omega

/-- The sixteen column tiles of 512 rows are the 8192 rows. -/
theorem sum_tiles {M : Type*} [AddCommMonoid M] (f : ℕ → M) :
    ∑ j ∈ Finset.range 16, ∑ b : Fin 512, f (512 * j + b.val) = ∑ c : Fin 8192, f c.val := by
  rw [← Fin.sum_univ_eq_sum_range (fun j => ∑ b : Fin 512, f (512 * j + b.val)) 16]
  rw [← Equiv.sum_comp (finProdFinEquiv : Fin 16 × Fin 512 ≃ Fin 8192) (fun c => f c.val), Fintype.sum_prod_type]
  refine Finset.sum_congr rfl fun j _ => Finset.sum_congr rfl fun b _ => ?_
  congr 1
  show 512 * j.val + b.val = b.val + 512 * j.val
  omega

/-- Row `r` of the array, `r` taken below 8192. -/
def rowN (r : ℕ) : Fin 8192 := ⟨r % 8192, Nat.mod_lt _ (by norm_num)⟩

/-- What row `r`'s denominator gets from row `c'`: nothing from itself, else `exp` of the dot product. -/
def term (X : Cert.Spec.Reps) (r c' : ℕ) : EReal :=
  if r = c' then 0 else Ideal.exp (Cert.Spec.sim X (rowN r) (rowN c'))

/-- One update of the accumulator at point `t`, through the array: entry `a` gains what global row
    `1024 * (t / 16) + a` gets from the 512 rows of column tile `t % 16`. -/
theorem step_apply (c : Dev nD) (t : Fin cfg0.N) (s : Vec Ideal S1024x1 .f32) (a : Fin 1024) :
    (k0_pay2 (F := Ideal) (grid0.coords t) (rowBlk m c t) (colBlk m c t) s (ix2 a (0 : Fin 1)) : EReal)
      = (s (ix2 a (0 : Fin 1)) : EReal)
        + ∑ b : Fin 512, term (xmat m c) (1024 * (t.val / 16) + a.val) (512 * (t.val % 16) + b.val) := by
  obtain ⟨c0, c1, -⟩ := pt_facts t
  have hN : t.val < 128 := lt_of_lt_of_eq t.isLt (show cfg0.N = 128 from N_0)
  refine (pay2_apply (grid0.coords t) (rowBlk m c t) (colBlk m c t) s a).trans ?_
  rw [c0, c1]
  refine congrArg (_ + ·) (Finset.sum_congr rfl fun b _ => ?_)
  unfold term
  refine if_congr Iff.rfl rfl (congrArg Ideal.exp ?_)
  unfold Cert.Spec.sim
  refine Finset.sum_congr rfl fun d _ => ?_
  have ha : a.val < 1024 := a.isLt
  have hb : b.val < 512 := b.isLt
  exact congrArg₂ (· * ·)
    (rowBlk_apply m c t (ix2 a d) (ix2 (rowN (1024 * (t.val / 16) + a.val)) d)
      (show (1024 * (t.val / 16) + a.val) % 8192 = 1024 * (t.val / 16) + a.val by omega) rfl)
    (colBlk_apply m c t (ix2 b d) (ix2 (rowN (512 * (t.val % 16) + b.val)) d)
      (show (512 * (t.val % 16) + b.val) % 8192 = 512 * (t.val % 16) + b.val by omega) rfl)

/-- The accumulator after point `n`, entry by entry: within row tile `n / 16`, the column tiles `0 .. n % 16` summed.
    By induction on the point: a row tile's first point restarts from the zero column, every other adds to what
    the point before left. -/
theorem accAt_apply (c : Dev nD) : ∀ (n : ℕ) (hn : n < cfg0.N) (a : Fin 1024),
    (accAt m c n hn (ix2 a (0 : Fin 1)) : EReal)
      = ∑ j ∈ Finset.range (n % 16 + 1), ∑ b : Fin 512, term (xmat m c) (1024 * (n / 16) + a.val) (512 * j + b.val)
  | 0, hn, a => by
    refine (congrFun (accAt_first m c ⟨0, hn⟩ rfl) (ix2 a (0 : Fin 1))).trans ?_
    refine (step_apply m c ⟨0, hn⟩ (k0_pay1 (F := Ideal)) a).trans ?_
    rw [pay1_apply, zero_add]
    show ∑ b : Fin 512, term (xmat m c) (1024 * (0 / 16) + a.val) (512 * (0 % 16) + b.val) = _
    simp only [Nat.zero_div, Nat.zero_mod, Nat.zero_add, Finset.sum_range_one]
  | n + 1, hn, a => by
    by_cases h : (n + 1) % 16 = 0
    · refine (congrFun (accAt_first m c ⟨n + 1, hn⟩ h) (ix2 a (0 : Fin 1))).trans ?_
      refine (step_apply m c ⟨n + 1, hn⟩ (k0_pay1 (F := Ideal)) a).trans ?_
      rw [pay1_apply, zero_add]
      show ∑ b : Fin 512, term (xmat m c) (1024 * ((n + 1) / 16) + a.val) (512 * ((n + 1) % 16) + b.val) = _
      rw [h, Nat.zero_add, Finset.sum_range_one]
    · refine (congrFun (accAt_next m c ⟨n + 1, hn⟩ h) (ix2 a (0 : Fin 1))).trans ?_
      refine (step_apply m c ⟨n + 1, hn⟩ _ a).trans ?_
      refine (congrArg (fun z : EReal => z + ∑ b : Fin 512, term (xmat m c) (1024 * ((n + 1) / 16) + a.val) (512 * ((n + 1) % 16) + b.val))
        (accAt_apply c n (Nat.lt_of_succ_lt hn) a)).trans ?_
      have e1 : (n + 1) / 16 = n / 16 := by omega
      have e2 : (n + 1) % 16 = n % 16 + 1 := by omega
      rw [e1, e2, Finset.sum_range_succ _ (n % 16 + 1)]

/-- Row `r`'s sum over all sixteen column tiles. -/
def denomN (X : Cert.Spec.Reps) (r : ℕ) : EReal :=
  ∑ j ∈ Finset.range 16, ∑ b : Fin 512, term X r (512 * j + b.val)

/-- The column the output array ends holding. -/
def outCol (c : Dev nD) : Vec Ideal S8192x1 .f32 := fun i => denomN (xmat m c) (i 0).val

/-- At the last column tile of a row tile the accumulator's entry `y` is the full sum of the global row it stands for. -/
theorem flush_entry (c : Dev nD) (t : Fin cfg0.N) (h15 : t.val % 16 = 15) (y : S1024x1.Idx) (k : S8192x1.Idx)
    (hk0 : (k 0).val = 1024 * (t.val / 16) + (y 0).val) :
    (accAt m c t.val t.isLt : Vec Ideal S1024x1 .f32) y = outCol m c k := by
  have hy : y = ix2 (n0 := 1024) (n1 := 1) (y 0) (0 : Fin 1) := by
    funext d
    match d with
    | ⟨0, _⟩ => rfl
    | ⟨1, _⟩ => exact Subsingleton.elim (α := Fin 1) _ _
  refine (congrArg (accAt m c t.val t.isLt : Vec Ideal S1024x1 .f32) hy).trans ?_
  refine (accAt_apply m c t.val t.isLt (y 0)).trans ?_
  have e : t.val % 16 + 1 = 16 := by omega
  unfold outCol denomN
  rw [e, hk0]

/-- What a point that writes back writes is its block of that column. -/
theorem flushed_eq (c : Dev nD) (t : Fin cfg0.N) (hf : (cfg0.win 2).flush t = true) :
    (dats m 0 c).flushed 2 t = ((cfg0.win 2).blk t).view.read (Elt Ideal) (outCol m c) := by
  have h15 : t.val % 16 = 15 := (flush0_2 t).mp hf
  obtain ⟨-, -, -, -, -, -, e0, e1⟩ := pt_facts t
  show (cfg0.win 2).cut (grid0.coords t) ((dats m 0 c).after 2 t) = _
  rw [after2]
  funext y
  rw [View.read_apply]
  show (accAt m c t.val t.isLt : Vec Ideal S1024x1 .f32) ((cfg0.win 2).xinj (grid0.coords t) y)
    = outCol m c (((cfg0.win 2).blk t).view.emb y)
  refine flush_entry m c t h15 _ _ ?_
  show win0_2.index t 0 * 1024 + 1 * (y 0).val = 1024 * (t.val / 16) + (y 0).val
  rw [e0]; omega

/-- An index of the column is in point `t`'s block iff each coordinate is in the block's range on its axis. -/
theorem mem_blk (t : Fin cfg0.N) (i : S8192x1.Idx) :
    i ∈ ((cfg0.win 2).blk t).view.set
      ↔ ∀ a : Fin 2, win0_2.index t a * S1024x1.size a ≤ (i a).val ∧ (i a).val < win0_2.index t a * S1024x1.size a + S1024x1.size a := by
  show i ∈ ((View.whole main_v12).slice (win0_2.rect t)).set ↔ _
  rw [View.set_slice_whole, Rect.mem_set_unit]
  exact Iff.rfl

/-- Every row of the column is written back: row `r` by the last point of row tile `r / 1024`. -/
theorem cover (i : S8192x1.Idx) :
    ∃ t : Fin cfg0.N, (cfg0.win 2).flush t = true ∧ i ∈ ((cfg0.win 2).blk t).view.set := by
  have h0 : (i 0).val < 8192 := (i 0).isLt
  have h1 : (i 1).val < 1 := (i 1).isLt
  obtain ⟨t, ht⟩ : ∃ t : Fin cfg0.N, t.val = 16 * ((i 0).val / 1024) + 15 :=
    ⟨⟨16 * ((i 0).val / 1024) + 15, by rw [show cfg0.N = 128 from N_0]; omega⟩, rfl⟩
  obtain ⟨-, -, -, -, -, -, e0, e1⟩ := pt_facts t
  refine ⟨t, (flush0_2 t).mpr (by omega), ?_⟩
  rw [mem_blk]
  intro a
  match a with
  | ⟨0, _⟩ =>
    show win0_2.index t 0 * 1024 ≤ (i 0).val ∧ (i 0).val < win0_2.index t 0 * 1024 + 1024
    rw [e0]; omega
  | ⟨1, _⟩ =>
    show win0_2.index t 1 * 1 ≤ (i 1).val ∧ (i 1).val < win0_2.index t 1 * 1 + 1
    rw [e1]; omega

/-- So the output array ends holding that column. -/
theorem final (c : Dev nD) : (dats m 0 c).arrAt 2 cfg0.N = outCol m c :=
  (dats m 0 c).arrAt_eq_of_cover 2 (outCol m c) (flushed_eq m c) cover

/-- The sum over the sixteen column tiles is the sum over all rows: the denominator. -/
theorem denomN_eq (X : Cert.Spec.Reps) (r : Fin 8192) : denomN X r.val = Cert.Spec.denom X r := by
  unfold denomN Cert.Spec.denom
  refine (sum_tiles (fun c' => term X r.val c')).trans ?_
  refine Finset.sum_congr rfl fun c' _ => ?_
  unfold term
  have hr : rowN r.val = r := Fin.ext (Nat.mod_eq_of_lt r.isLt)
  have hc : rowN c'.val = c' := Fin.ext (Nat.mod_eq_of_lt c'.isLt)
  rw [hr, hc]
  exact if_congr Fin.val_inj rfl rfl

/-- After the region the output array holds every row's denominator. -/
theorem denoms (c : Dev nD) (r : Fin 8192) :
    (((dats (F := Ideal) m 0 c).arrAt 2 cfg0.N : FVec Ideal S8192x1 .f32) (ix2 r (0 : Fin 1)) : EReal) = Cert.Spec.denom (xmat m c) r := by
  refine (congrFun (final m c) (ix2 r (0 : Fin 1))).trans ?_
  exact denomN_eq (xmat m c) r

end Cert.KernelIdeal.Val

end
-- ==== Proof.KV.Bridge.lean ====
/-
  The kernel's program computes the loss of the reference's representations.  The array both windows read is the
  reference's matrix of representations; the region leaves every row's denominator in its output array; the lines
  after the region compute each row's numerator from the two normalised rows of its sample — for a row of the first
  half these are the row and its partner, for a row of the second half the partner and the row, and the product is
  commutative — and then the mean of `-log (numerator / denominator)`.
-/
import proofs.«166630_j78288663871843_1_alg».proof.Proof.KI.Frame
import proofs.«166630_j78288663871843_1_alg».proof.Proof.KV.HostVal
import proofs.«166630_j78288663871843_1_alg».proof.Proof.KV.Tail
import proofs.«166630_j78288663871843_1_alg».proof.Proof.KV.Denoms
import proofs.«166630_j78288663871843_1_alg».proof.Proof.Reps

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Fr Cert.Bridge

variable (m : (ℓ : Loc nD τ sig) → Buf (Elt Ideal) ℓ) (ρ : Dev nD → PrngReg)

/-- A row's numerator, computed from its sample's two normalised rows, is `exp` of its similarity with its partner. -/
theorem numer_eq (x0 x1 : FVec Ideal Cert.ReferenceIdeal.S4096x128 .f32) (r : Fin 8192) :
    Ideal.exp (∑ d : Fin 128, repsLo x1 (sampleOf r) d * repsHi x0 (sampleOf r) d) = Cert.Spec.numer (reps x0 x1) r := by
  unfold Cert.Spec.numer Cert.Spec.sim
  refine congrArg Ideal.exp (Finset.sum_congr rfl fun d _ => ?_)
  by_cases h : r.val < 4096
  · have hr : reps x0 x1 r d = repsLo x1 (sampleOf r) d :=
      (congrArg (fun q => reps x0 x1 q d)
        (show r = ⟨(sampleOf r).val, by have := (sampleOf r).isLt; omega⟩ from Fin.ext (by simp only [sampleOf]; omega))).trans
        (reps_lo x0 x1 (sampleOf r) d)
    have hp : reps x0 x1 (Cert.Spec.partner r) d = repsHi x0 (sampleOf r) d :=
      (congrArg (fun q => reps x0 x1 q d)
        (show Cert.Spec.partner r = ⟨(sampleOf r).val + 4096, by have := (sampleOf r).isLt; omega⟩ from
          Fin.ext (by simp only [Cert.Spec.partner, sampleOf]; omega))).trans
        (reps_hi x0 x1 (sampleOf r) d)
    rw [hr, hp]
  · have hr : reps x0 x1 r d = repsHi x0 (sampleOf r) d :=
      (congrArg (fun q => reps x0 x1 q d)
        (show r = ⟨(sampleOf r).val + 4096, by have := (sampleOf r).isLt; omega⟩ from
          Fin.ext (by have := r.isLt; simp only [sampleOf]; omega))).trans
        (reps_hi x0 x1 (sampleOf r) d)
    have hp : reps x0 x1 (Cert.Spec.partner r) d = repsLo x1 (sampleOf r) d :=
      (congrArg (fun q => reps x0 x1 q d)
        (show Cert.Spec.partner r = ⟨(sampleOf r).val, by have := (sampleOf r).isLt; omega⟩ from
          Fin.ext (by have := r.isLt; simp only [Cert.Spec.partner, sampleOf]; omega))).trans
        (reps_lo x0 x1 (sampleOf r) d)
    rw [hr, hp]
    exact mul_comm _ _

/-- The result buffer at the end of the kernel's program: the loss of the arguments' representations. -/
theorem result_value (c : Dev nD) :
    (Vfin (F := Ideal) m c (Proc.devRef .tc main_v24) : FVec Ideal S_ .f32)
      = fun _ => Cert.Spec.loss (reps (arg0 m c) (arg1 m c)) := by
  show (StableHlo.after hostOps1 (Wexit (F := Ideal) m c) (Proc.devRef .tc main_v24) : FVec Ideal S_ .f32) = _
  rw [tail_value]
  refine funext fun _ => ?_
  unfold Cert.Spec.loss
  refine congrArg₂ Cert.Spec.lossOf (funext fun r => ?_) (funext fun r => ?_)
  · have e4 : W4 (Wexit (F := Ideal) m c) = (V (F := Ideal) m c main_v4 : FVec Ideal S4096x128 .f32) :=
      Function.update_of_ne (StableHlo.devRef_ne_of_ne (by decide)) _ _
    have e9 : W9 (Wexit (F := Ideal) m c) = (V (F := Ideal) m c main_v9 : FVec Ideal S4096x128 .f32) :=
      Function.update_of_ne (StableHlo.devRef_ne_of_ne (by decide)) _ _
    rw [e4, e9]
    exact (congrArg Ideal.exp (Finset.sum_congr rfl fun d _ =>
      congrArg₂ (fun a b : EReal => a * b) (V_v4 m c (sampleOf r) d) (V_v9 m c (sampleOf r) d))).trans (numer_eq _ _ r)
  · have e12 : W12 (Wexit (F := Ideal) m c) = ((dats (F := Ideal) m 0 c).arrAt 2 cfg0.N : FVec Ideal S8192x1 .f32) :=
      Function.update_self _ _ _
    rw [e12, denoms]
    exact congrArg (fun R => Cert.Spec.denom R r) (funext fun r' => funext fun d => V_v11 m c r' d)

/-- The kernel's program run at the extended reals: the result is the loss of the arguments' representations, the
    arguments are unchanged. -/
theorem kernel_run : θ_run defs (onTc (τ := τ) (main (F := Ideal))) ⟨m, fun _ => 0, ρ⟩ (fun r => ∀ c : Dev nD,
      r.2.mem ((c.tc : Thread nD τ).loc main_v24) = (fun _ => Cert.Spec.loss (reps (arg0 m c) (arg1 m c)) : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v24 mem_rest_v24).trans (result_value m c),
      (h c main_arg0 mem_rest_arg0).trans (Vfin_arg0 m c), (h c main_arg1 mem_rest_arg1).trans (Vfin_arg1 m c)⟩)
    (run_all (F := Ideal) m ρ)

end Cert.KernelIdeal.Val

end
-- ==== Proof.RefGather.lean ====
/-
  Reading the reference's shape operations at an index, and the integer words its index arithmetic meets.

  A gather of one element per row from an 8192 x 8192 matrix reads, for row `k` of the 4096 x 2 array of start
  indices, the matrix at (row, column) = the two start indices of that row, each read as a signed integer and
  clamped into [0, 8191].  A concatenation of two blocks reads the first block below the first extent and the
  second block above it, the first extent less.  A word of a natural below 8192 is non-negative as a signed
  integer and denotes that natural; two such words are equal exactly when the naturals are.
-/
import proofs.«166630_j78288663871843_1_alg».proof.Proof.Gen.ReferenceIdeal
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.Bridge

open Idealize.ShloMosaic Idealize.ShloMosaic.TcCoe Idealize.SL.Sem Idealize.ShloMosaic.ValueIdx
open Cert.ReferenceIdeal Cert.ReferenceIdeal.Gen

/-! ## The gather of one matrix element per row -/

/-- The dimension numbers of the two diagonal gathers: both operand axes collapsed, both named by the start
    index, whose two components lie along axis 1 of the start indices. -/
abbrev diagDims := gather_S8192x8192_S4096x2_S4096_n_01_n_n_01_1_11

/-- Where result row `j` reads the row component of its start index. -/
theorem diagDims_si0 (j : S4096.Idx) :
    diagDims.siIdx j ⟨List.idxOf (0 : Fin S8192x8192.rank) diagDims.startIndexMap,
      List.idxOf_lt_length_iff.2 (by decide)⟩ = ix2 (j 0) (0 : Fin 2) := by
  funext b; refine Fin.ext ?_
  match b with
  | ⟨0, _⟩ => rfl
  | ⟨1, _⟩ => rfl

/-- Where result row `j` reads the column component of its start index. -/
theorem diagDims_si1 (j : S4096.Idx) :
    diagDims.siIdx j ⟨List.idxOf (1 : Fin S8192x8192.rank) diagDims.startIndexMap,
      List.idxOf_lt_length_iff.2 (by decide)⟩ = ix2 (j 0) (1 : Fin 2) := by
  funext b; refine Fin.ext ?_
  match b with
  | ⟨0, _⟩ => rfl
  | ⟨1, _⟩ => rfl

/-- The operand's row coordinate: the clamped first component (no batching, no offset on a collapsed axis). -/
theorem diagDims_coord0 (j : S4096.Idx) (idx : IVec S4096x2 32) :
    diagDims.start j idx 0 + diagDims.batchCoord j 0 + diagDims.offCoord j 0
      = min (idx (ix2 (j 0) (0 : Fin 2))).toInt.toNat 8191 := by
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin S8192x8192.rank) ∈ diagDims.startIndexMap by decide), diagDims_si0]
  rfl

/-- The operand's column coordinate: the clamped second component. -/
theorem diagDims_coord1 (j : S4096.Idx) (idx : IVec S4096x2 32) :
    diagDims.start j idx 1 + diagDims.batchCoord j 1 + diagDims.offCoord j 1
      = min (idx (ix2 (j 0) (1 : Fin 2))).toInt.toNat 8191 := by
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin S8192x8192.rank) ∈ diagDims.startIndexMap by decide), diagDims_si1]
  rfl

/-- THE GATHER READ AT ROW `j`: the matrix at the two start indices of that row, each read signed and clamped
    into [0, 8191]. -/
theorem gather_pair_apply {α : Type} (x : S8192x8192.Idx → α) (idx : IVec S4096x2 32) (j : S4096.Idx) :
    Host.gather diagDims x idx j
      = x (ix2 (⟨min (idx (ix2 (j 0) (0 : Fin 2))).toInt.toNat 8191, by omega⟩ : Fin 8192)
              (⟨min (idx (ix2 (j 0) (1 : Fin 2))).toInt.toNat 8191, by omega⟩ : Fin 8192)) := by
  unfold Host.gather
  congr 1
  funext a
  refine Fin.ext ?_
  match a with
  | ⟨0, _⟩ => exact diagDims_coord0 j idx
  | ⟨1, _⟩ => exact diagDims_coord1 j idx

/-! ## Concatenations read at an index -/

section Concat
variable {α : Type}

/-- Two stacked vectors of 4096 entries: an entry below 4096 is the first vector's … -/
theorem stack_lo (a b : S4096.Idx → α) (k : Fin 4096) :
    concatenate S8192 0 [⟨S4096, a⟩, ⟨S4096, b⟩] concatenates_S4096_S4096_S8192_d0
      (ix1 (⟨k.val, by omega⟩ : Fin 8192)) = a (ix1 k) :=
  concatenate_pair_apply_left (t := S8192) (s₁ := S4096) (s₂ := S4096) 0 a b
    concatenates_S4096_S4096_S8192_d0 (ix1 (⟨k.val, by omega⟩ : Fin 8192)) rfl (ix1 k)
    (fun c => match c with
      | ⟨0, _⟩ => rfl)

/-- … and entry `k + 4096` is the second vector's entry `k`. -/
theorem stack_hi (a b : S4096.Idx → α) (k : Fin 4096) :
    concatenate S8192 0 [⟨S4096, a⟩, ⟨S4096, b⟩] concatenates_S4096_S4096_S8192_d0
      (ix1 (⟨k.val + 4096, by omega⟩ : Fin 8192)) = b (ix1 k) :=
  concatenate_pair_apply_right (t := S8192) (s₁ := S4096) (s₂ := S4096) 0 a b
    concatenates_S4096_S4096_S8192_d0 (ix1 (⟨k.val + 4096, by omega⟩ : Fin 8192)) rfl rfl (ix1 k)
    (fun c => match c with
      | ⟨0, _⟩ => fun h => absurd rfl h) rfl

/-- Two columns side by side: column 0 is the first … -/
theorem pair_fst (a b : S4096x1.Idx → α) (k : Fin 4096) :
    concatenate S4096x2 1 [⟨S4096x1, a⟩, ⟨S4096x1, b⟩] concatenates_S4096x1_S4096x1_S4096x2_d1
      (ix2 k (0 : Fin 2)) = a (ix2 k (0 : Fin 1)) :=
  concatenate_pair_apply_left (t := S4096x2) (s₁ := S4096x1) (s₂ := S4096x1) 1 a b
    concatenates_S4096x1_S4096x1_S4096x2_d1 (ix2 k (0 : Fin 2)) rfl (ix2 k (0 : Fin 1))
    (fun c => match c with
      | ⟨0, _⟩ => rfl
      | ⟨1, _⟩ => rfl)

/-- … and column 1 the second. -/
theorem pair_snd (a b : S4096x1.Idx → α) (k : Fin 4096) :
    concatenate S4096x2 1 [⟨S4096x1, a⟩, ⟨S4096x1, b⟩] concatenates_S4096x1_S4096x1_S4096x2_d1
      (ix2 k (1 : Fin 2)) = b (ix2 k (0 : Fin 1)) :=
  concatenate_pair_apply_right (t := S4096x2) (s₁ := S4096x1) (s₂ := S4096x1) 1 a b
    concatenates_S4096x1_S4096x1_S4096x2_d1 (ix2 k (1 : Fin 2)) rfl rfl (ix2 k (0 : Fin 1))
    (fun c => match c with
      | ⟨0, _⟩ => fun _ => rfl
      | ⟨1, _⟩ => fun h => absurd rfl h) rfl

end Concat

/-! ## Words of small naturals -/

/-- The word of a natural below 8192 denotes it. -/
theorem word_toNat (n : Nat) (h : n < 8192) : (BitVec.ofNat 32 n).toNat = n := by
  rw [BitVec.toNat_ofNat]; exact Nat.mod_eq_of_lt (by omega)

/-- Adding the word of 4096 to the word of `k < 4096` gives the word denoting `k + 4096`. -/
theorem shift_toNat (k : Nat) (h : k < 4096) : (IntOp.addi 4096#32 (BitVec.ofNat 32 k)).toNat = k + 4096 := by
  unfold IntOp.addi
  rw [BitVec.toNat_add, word_toNat k (by omega)]
  show (4096 + k) % 2 ^ 32 = k + 4096
  omega

/-- A word denoting a natural below 8192 reads, as a signed integer, that natural. -/
theorem toInt_of_small (x : BitVec 32) (n : Nat) (hx : x.toNat = n) (h : n < 8192) : x.toInt = (n : Int) := by
  rw [BitVec.toInt_eq_toNat_cond, if_pos (by rw [hx]; omega), hx]

/-- Such a word is not negative. -/
theorem not_neg_of_small (x : BitVec 32) (n : Nat) (hx : x.toNat = n) (h : n < 8192) :
    IntOp.cmpi .slt x 0#32 = 0#1 := by
  have hi := toInt_of_small x n hx h
  show BitVec.ofBool (x.slt 0#32) = 0#1
  have : x.slt 0#32 = false := by
    rw [BitVec.slt, hi]
    simp
  rw [this]; rfl

/-- Clamping it into [0, 8191] changes nothing. -/
theorem start_of_small (x : BitVec 32) (n : Nat) (hx : x.toNat = n) (h : n < 8192) :
    min x.toInt.toNat 8191 = n := by
  rw [toInt_of_small x n hx h, Int.toNat_natCast]; omega

/-- The words of two naturals below 8192 (the first with the word of 0 added) are equal exactly when the naturals are. -/
theorem eq_word (r c : Nat) (hr : r < 8192) (hc : c < 8192) :
    IntOp.cmpi .eq (IntOp.addi (BitVec.ofNat 32 r) 0#32) (BitVec.ofNat 32 c) = if r = c then 1#1 else 0#1 := by
  unfold IntOp.addi
  rw [BitVec.add_zero]
  show BitVec.ofBool (BitVec.ofNat 32 r == BitVec.ofNat 32 c) = _
  by_cases h : r = c
  · subst h; rw [if_pos rfl]; simp
  · rw [if_neg h]
    have : (BitVec.ofNat 32 r == BitVec.ofNat 32 c) = false := by
      rw [beq_eq_false_iff_ne]
      intro he
      apply h
      have := congrArg BitVec.toNat he
      rwa [word_toNat r hr, word_toNat c hc] at this
    rw [this]; rfl

/-- The mask at (r, c): one less the indicator of the diagonal, so 0 on the diagonal and 1 off it. -/
theorem mask_word (r c : Nat) (hr : r < 8192) (hc : c < 8192) :
    FloatOps.subf (F := Ideal) (FloatOps.ofBits .f32 0x3F800000#32)
      (FloatOps.uitofp .f32 (IntOp.cmpi .eq (IntOp.addi (BitVec.ofNat 32 r) 0#32) (BitVec.ofNat 32 c)))
      = if r = c then (0 : EReal) else 1 := by
  rw [eq_word r c hr hc]
  show Ideal.ofBits .f32 0x3F800000#32 - (((if r = c then 1#1 else 0#1 : BitVec 1).toNat : ℝ) : EReal) = _
  rw [Ideal.ofBits_one_f32]
  by_cases h : r = c
  · rw [if_pos h, if_pos h]
    show (1 : EReal) - (((1 : Nat) : ℝ) : EReal) = 0
    rw [Nat.cast_one, EReal.coe_one, ← EReal.coe_one, ← EReal.coe_sub, sub_self, EReal.coe_zero]
  · rw [if_neg h, if_neg h]
    show (1 : EReal) - (((0 : Nat) : ℝ) : EReal) = 1
    rw [Nat.cast_zero, EReal.coe_zero, sub_zero]

end Cert.Bridge

end
-- ==== Proof.RefVal.lean ====
/-
  The reference program's result is the loss of its representations: its similarity matrix is their Gram matrix,
  its two diagonals at offsets +4096 and -4096 are the partners' similarities, its mask `1 - eye` removes exactly the
  diagonal term of each row's sum, and dividing by the float word of 1.0 changes nothing.
-/
import proofs.«166630_j78288663871843_1_alg».proof.Proof.Reps
import proofs.«166630_j78288663871843_1_alg».proof.Proof.RefGather
import Idealize.ShloMosaic.Lib.ValueLayout
import Idealize.ShloMosaic.Lib.Pipeline.Value
import Idealize.ShloMosaic.Lib.ValueIdxRank1

set_option maxRecDepth 16384

noncomputable section

namespace Cert.Bridge

open Idealize.ShloMosaic Idealize.ShloMosaic.TcCoe Idealize.SL.Sem Idealize.ShloMosaic.ValueIdx
open Cert.ReferenceIdeal Cert.ReferenceIdeal.Read

/-! ## The similarity matrix is the Gram matrix of the representations -/

/-- Entry (r, c) of the product of the representations with their transpose is the dot product of rows r and c. -/
theorem gram (x0 x1 : FVec Ideal S4096x128 .f32) (r c : Fin 8192) :
    val_main_v12 (F := Ideal) x0 x1 (ix2 r c) = Cert.Spec.sim (reps x0 x1) r c := by
  rw [val_main_v12_apply]
  unfold Cert.Spec.sim reps
  refine Finset.sum_congr rfl fun d _ => ?_
  rw [val_main_v11_apply]
  have e1 : lidx_main_v12 (ix2 r c) d = ix2 r d :=
    funext fun a => Fin.ext (by match a with | ⟨0, _⟩ => rfl | ⟨1, _⟩ => rfl)
  have e2 : idx_main_v11 (ridx_main_v12 (ix2 r c) d) = ix2 c d :=
    funext fun a => Fin.ext (by match a with | ⟨0, _⟩ => rfl | ⟨1, _⟩ => rfl)
  rw [e1, e2]

/-! ## The start indices of the two diagonals

For `k < 4096` the upper diagonal reads (k, k + 4096) and the lower one (k + 4096, k): each start index is the word
of a natural below 8192, so the "add 8192 if negative" branch is never taken. -/

theorem up_iota (k : Fin 4096) : val_main_call2_v0 (F := Ideal) (ix1 k) = BitVec.ofNat 32 k.val := rfl

theorem up_shift (k : Fin 4096) :
    val_main_call2_v3 (F := Ideal) (ix1 k) = IntOp.addi 4096#32 (BitVec.ofNat 32 k.val) := by
  rw [val_main_call2_v3_apply, val_main_call2_v2_apply, val_main_call2_c_apply, val_main_call2_v1_apply]

theorem up_row (k : Fin 4096) : val_main_call2_v8 (F := Ideal) (ix1 k) = BitVec.ofNat 32 k.val := by
  rw [val_main_call2_v8_apply, val_main_call2_v5_apply, val_main_call2_v4_apply, val_main_call2_c_0_apply, up_iota,
    not_neg_of_small _ k.val (word_toNat _ (by omega)) (by omega), select_zero]

theorem up_col (k : Fin 4096) :
    val_main_call2_v13 (F := Ideal) (ix1 k) = IntOp.addi 4096#32 (BitVec.ofNat 32 k.val) := by
  rw [val_main_call2_v13_apply, val_main_call2_v10_apply, val_main_call2_v9_apply, val_main_call2_c_2_apply, up_shift,
    not_neg_of_small _ (k.val + 4096) (shift_toNat _ k.isLt) (by omega), select_zero]

theorem up_start0 (k : Fin 4096) :
    min (val_main_call2_v16 (F := Ideal) (ix2 k (0 : Fin 2))).toInt.toNat 8191 = k.val := by
  have e : idx_main_call2_v14 (ix2 k (0 : Fin 1)) = ix1 k :=
    funext fun a => Fin.ext (by match a with | ⟨0, _⟩ => rfl)
  unfold val_main_call2_v16
  rw [pair_fst, val_main_call2_v14_apply, e, up_row]
  exact start_of_small _ _ (word_toNat _ (by omega)) (by omega)

theorem up_start1 (k : Fin 4096) :
    min (val_main_call2_v16 (F := Ideal) (ix2 k (1 : Fin 2))).toInt.toNat 8191 = k.val + 4096 := by
  have e : idx_main_call2_v15 (ix2 k (0 : Fin 1)) = ix1 k :=
    funext fun a => Fin.ext (by match a with | ⟨0, _⟩ => rfl)
  unfold val_main_call2_v16
  rw [pair_snd, val_main_call2_v15_apply, e, up_col]
  exact start_of_small _ _ (shift_toNat _ k.isLt) (by omega)

theorem down_iota (k : Fin 4096) : val_main_call3_v0 (F := Ideal) (ix1 k) = BitVec.ofNat 32 k.val := rfl

theorem down_shift (k : Fin 4096) :
    val_main_call3_v3 (F := Ideal) (ix1 k) = IntOp.addi 4096#32 (BitVec.ofNat 32 k.val) := by
  rw [val_main_call3_v3_apply, val_main_call3_v2_apply, val_main_call3_c_apply, val_main_call3_v1_apply]

theorem down_row (k : Fin 4096) :
    val_main_call3_v8 (F := Ideal) (ix1 k) = IntOp.addi 4096#32 (BitVec.ofNat 32 k.val) := by
  rw [val_main_call3_v8_apply, val_main_call3_v5_apply, val_main_call3_v4_apply, val_main_call3_c_0_apply, down_shift,
    not_neg_of_small _ (k.val + 4096) (shift_toNat _ k.isLt) (by omega), select_zero]

theorem down_col (k : Fin 4096) : val_main_call3_v13 (F := Ideal) (ix1 k) = BitVec.ofNat 32 k.val := by
  rw [val_main_call3_v13_apply, val_main_call3_v10_apply, val_main_call3_v9_apply, val_main_call3_c_2_apply, down_iota,
    not_neg_of_small _ k.val (word_toNat _ (by omega)) (by omega), select_zero]

theorem down_start0 (k : Fin 4096) :
    min (val_main_call3_v16 (F := Ideal) (ix2 k (0 : Fin 2))).toInt.toNat 8191 = k.val + 4096 := by
  have e : idx_main_call3_v14 (ix2 k (0 : Fin 1)) = ix1 k :=
    funext fun a => Fin.ext (by match a with | ⟨0, _⟩ => rfl)
  unfold val_main_call3_v16
  rw [pair_fst, val_main_call3_v14_apply, e, down_row]
  exact start_of_small _ _ (shift_toNat _ k.isLt) (by omega)

theorem down_start1 (k : Fin 4096) :
    min (val_main_call3_v16 (F := Ideal) (ix2 k (1 : Fin 2))).toInt.toNat 8191 = k.val := by
  have e : idx_main_call3_v15 (ix2 k (0 : Fin 1)) = ix1 k :=
    funext fun a => Fin.ext (by match a with | ⟨0, _⟩ => rfl)
  unfold val_main_call3_v16
  rw [pair_snd, val_main_call3_v15_apply, e, down_col]
  exact start_of_small _ _ (word_toNat _ (by omega)) (by omega)

/-! ## The two diagonals are the partners' similarities -/

/-- The diagonal at offset +4096: entry k is the similarity of rows k and k + 4096. -/
theorem diag_up (x0 x1 : FVec Ideal S4096x128 .f32) (k : Fin 4096) :
    val_main_v13 (F := Ideal) x0 x1 (ix1 k)
      = Cert.Spec.sim (reps x0 x1) ⟨k.val, by omega⟩ ⟨k.val + 4096, by omega⟩ := by
  unfold val_main_v13
  refine (gather_pair_apply _ _ _).trans ?_
  refine Eq.trans (congrArg (val_main_v12 (F := Ideal) x0 x1) ?_) (gram x0 x1 _ _)
  funext a; refine Fin.ext ?_
  match a with
  | ⟨0, _⟩ => exact up_start0 k
  | ⟨1, _⟩ => exact up_start1 k

/-- The diagonal at offset -4096: entry k is the similarity of rows k + 4096 and k. -/
theorem diag_down (x0 x1 : FVec Ideal S4096x128 .f32) (k : Fin 4096) :
    val_main_v14 (F := Ideal) x0 x1 (ix1 k)
      = Cert.Spec.sim (reps x0 x1) ⟨k.val + 4096, by omega⟩ ⟨k.val, by omega⟩ := by
  unfold val_main_v14
  refine (gather_pair_apply _ _ _).trans ?_
  refine Eq.trans (congrArg (val_main_v12 (F := Ideal) x0 x1) ?_) (gram x0 x1 _ _)
  funext a; refine Fin.ext ?_
  match a with
  | ⟨0, _⟩ => exact down_start0 k
  | ⟨1, _⟩ => exact down_start1 k

theorem lo_lt (k : Fin 4096) : k.val < 8192 := by omega
theorem hi_lt (k : Fin 4096) : k.val + 4096 < 8192 := by omega

/-- The stacked diagonals: entry r is the similarity of row r with its partner. -/
theorem positives (x0 x1 : FVec Ideal S4096x128 .f32) (r : Fin 8192) :
    val_main_v15 (F := Ideal) x0 x1 (ix1 r) = Cert.Spec.sim (reps x0 x1) r (Cert.Spec.partner r) := by
  by_cases h : r.val < 4096
  · obtain ⟨k, rfl⟩ : ∃ k : Fin 4096, r = ⟨k.val, lo_lt k⟩ := ⟨⟨r.val, h⟩, rfl⟩
    unfold val_main_v15
    rw [stack_lo, diag_up]
    congr 1
    refine Fin.ext ?_
    show k.val + 4096 = (k.val + 4096) % 8192
    omega
  · obtain ⟨k, rfl⟩ : ∃ k : Fin 4096, r = ⟨k.val + 4096, hi_lt k⟩ :=
      ⟨⟨r.val - 4096, by omega⟩, Fin.ext (by show r.val = r.val - 4096 + 4096; omega)⟩
    unfold val_main_v15
    rw [stack_hi, diag_down]
    congr 1
    refine Fin.ext ?_
    show k.val = (k.val + 4096 + 4096) % 8192
    omega

/-- Row r's numerator. -/
theorem numer_row (x0 x1 : FVec Ideal S4096x128 .f32) (r : Fin 8192) :
    val_main_v18 (F := Ideal) x0 x1 (ix1 r) = Cert.Spec.numer (reps x0 x1) r := by
  rw [val_main_v18_apply, val_main_v17_apply, val_main_v16_apply, val_main_cst_1_apply, positives]
  show Ideal.exp (Ideal.div _ (Ideal.ofBits .f32 0x3F800000#32)) = _
  rw [Cert.Spec.div_one_word]
  rfl

/-! ## The masked row sums are the denominators -/

/-- The mask is 0 on the diagonal and 1 off it. -/
theorem mask_apply (r c : Fin 8192) :
    val_main_v26 (F := Ideal) (ix2 r c) = if r = c then (0 : EReal) else 1 := by
  rw [val_main_v26_apply, val_main_v25_apply, val_main_cst_2_apply, val_main_v24_apply, val_main_v23_apply,
    val_main_v22_apply, val_main_v19_apply, val_main_v21_apply, val_main_c_apply, val_main_v20_apply]
  refine (mask_word r.val c.val r.isLt c.isLt).trans ?_
  by_cases h : r = c
  · rw [if_pos h, if_pos (congrArg Fin.val h)]
  · rw [if_neg h, if_neg (fun hv => h (Fin.ext hv))]

/-- Row r's denominator. -/
theorem denom_row (x0 x1 : FVec Ideal S4096x128 .f32) (r : Fin 8192) :
    val_main_v31 (F := Ideal) x0 x1 (ix1 r) = Cert.Spec.denom (reps x0 x1) r := by
  rw [val_main_v31_apply, val_main_cst_4_apply]
  refine (Cert.Spec.zero_word_add _).trans ?_
  unfold Cert.Spec.denom
  refine Finset.sum_congr rfl fun c _ => ?_
  have e : idx_main_v31 (ix1 r) c = ix2 r c :=
    funext fun a => Fin.ext (by match a with | ⟨0, _⟩ => rfl | ⟨1, _⟩ => rfl)
  rw [e, val_main_v30_apply, mask_apply, val_main_v29_apply, val_main_v28_apply, val_main_v27_apply,
    val_main_cst_3_apply, gram]
  show (if r = c then (0 : EReal) else 1)
      * Ideal.exp (Ideal.div (Cert.Spec.sim (reps x0 x1) r c) (Ideal.ofBits .f32 0x3F800000#32)) = _
  rw [Cert.Spec.div_one_word]
  by_cases h : r = c
  · rw [if_pos h, if_pos h, zero_mul]
  · rw [if_neg h, if_neg h, one_mul]

/-! ## The mean over the rows -/

/-- The reference's result, as a function of the arguments, is the loss of their representations. -/
theorem ref_loss (x0 x1 : FVec Ideal S4096x128 .f32) :
    val_main_v36 (F := Ideal) x0 x1 = fun _ => Cert.Spec.loss (reps x0 x1) := by
  funext i
  rw [val_main_v36_apply, val_main_cst_6_apply, val_main_v35_apply, val_main_cst_5_apply]
  unfold Cert.Spec.loss Cert.Spec.lossOf
  show Ideal.div (Ideal.ofBits .f32 0x00000000#32 + ∑ j : S8192.Idx, val_main_v34 (F := Ideal) x0 x1 j)
      (Ideal.ofBits .f32 0x46000000#32) = _
  congr 1
  refine (Cert.Spec.zero_word_add _).trans ?_
  refine (Equiv.sum_comp (idxEquiv1 (n := 8192)).symm (val_main_v34 (F := Ideal) x0 x1)).symm.trans ?_
  refine Finset.sum_congr rfl fun r _ => ?_
  show val_main_v34 (F := Ideal) x0 x1 (ix1 r) = _
  rw [val_main_v34_apply, val_main_v33_apply, val_main_v32_apply, numer_row, denom_row]
  rfl

end Cert.Bridge

end
-- ==== Proof.lean ====
/-
  The certificate of the contrastive-loss kernel against its jnp reference, over the extended reals.

  Both programs normalise the rows of the two arguments (divide each row by `max (its norm, 1e-12)`) and stack them
  into 8192 representations.  The reference forms the whole 8192 x 8192 similarity matrix, takes its two diagonals at
  offsets ±4096 for the numerators and sums `(1 - eye) * exp (sim)` along each row for the denominators.  The kernel
  never forms the matrix: a grid of 8 row tiles by 16 column tiles multiplies a 1024 x 128 tile with a transposed
  512 x 128 tile, exponentiates, zeroes the entries on the global diagonal, and accumulates the row sums of the 16
  column tiles in a scratch buffer, written out at the last one; the numerators it computes on the host as the row-wise
  dot products of the two normalised halves.  Over the extended reals the two are one function: a sum may be split
  into tiles and re-associated, `0 * y = 0` and `1 * y = y` make the reference's mask the kernel's select, multiplying
  or dividing by the float 1.0 changes nothing, and the dot product is commutative.  No finiteness of the inputs is
  needed for any of this.

  The frames of the two kernel programs are proved from the body's run at each grid point and the launch of the
  region (Proof/KI, Proof/K); the reference's frame is its run with the result dropped; the ideal pass rewrote
  nothing, so `preserves` is trivial.
-/
import proofs.«166630_j78288663871843_1_alg».proof.Defs
import proofs.«166630_j78288663871843_1_alg».proof.Proof.Gen.Kernel
import proofs.«166630_j78288663871843_1_alg».proof.Proof.Gen.KernelIdeal
import proofs.«166630_j78288663871843_1_alg».proof.Proof.Gen.ReferenceIdeal
import proofs.«166630_j78288663871843_1_alg».proof.Proof.Gen.Pre_finite_inputs
import proofs.«166630_j78288663871843_1_alg».proof.Proof.K.Frame
import proofs.«166630_j78288663871843_1_alg».proof.Proof.KI.Frame
import proofs.«166630_j78288663871843_1_alg».proof.Proof.KV.Bridge
import proofs.«166630_j78288663871843_1_alg».proof.Proof.RefVal
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the loss of the arguments' representations. -/
theorem algebraic : Cert.algebraic_KernelIdeal_ReferenceIdeal := by
  intro m ρ m' ρ' _ hagree
  refine ⟨fun c => (fun _ => Cert.Spec.loss (Cert.Bridge.reps (Cert.KernelIdeal.Val.arg0 m c) (Cert.KernelIdeal.Val.arg1 m c))),
    Cert.KernelIdeal.Val.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, (hagree c).1, (hagree c).2]
  exact Cert.Bridge.ref_loss _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
